-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S300000x1 : Shape := ⟨2, ![300000, 1]⟩
abbrev S1x256 : Shape := ⟨2, ![1, 256]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S300000x1 : S_.BroadcastsInDim S300000x1 (![] : Fin 0 → Fin S300000x1.rank)
  reducesTo_S300000x1_S_d0_1 : S300000x1.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg20 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg16 : FVec F S256 .f32) (main_arg17 : FVec F S256 .f32) (main_arg18 : FVec F S256 .f32) (main_arg19 : FVec F S256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256 .f32) (main_arg20 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_v63 main_v67

def fn_part2 {F : FTy → Type} [FloatOps F] (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256 .f32) (main_arg20 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S1x256 .f32 := Host.absf main_arg11
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256 .f32) (main_arg20 : FVec F S256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S50000x256 .f32) (main_arg1 : FVec F S50000x256 .f32) (main_arg2 : IVec S2x300000 32) (main_arg3 : IVec S2x300000 32) (main_arg4 : FVec F S300000x1 .f32) (main_arg5 : FVec F S1x256 .f32) (main_arg6 : FVec F S256 .f32) (main_arg7 : FVec F S256x256 .f32) (main_arg8 : FVec F S256 .f32) (main_arg9 : FVec F S256x256 .f32) (main_arg10 : FVec F S256 .f32) (main_arg11 : FVec F S1x256 .f32) (main_arg12 : FVec F S256 .f32) (main_arg13 : FVec F S256x256 .f32) (main_arg14 : FVec F S256 .f32) (main_arg15 : FVec F S256x256 .f32) (main_arg16 : FVec F S256 .f32) (main_arg17 : FVec F S256 .f32) (main_arg18 : FVec F S256 .f32) (main_arg19 : FVec F S256 .f32) (main_arg20 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S300000x1 .f32 := Host.absf main_arg4
  let main_cst_2 : FVec F S_ .f32 := constant S_ .f32 0x7F800000#32
  let main_v10 : FVec F S300000x1 .f32 := broadcastInDim S300000x1 ![] bcast_S_S300000x1 main_cst_2
  let main_v11 : IVec S300000x1 1 := cmpf .olt main_v9 main_v10
  let main_c_3 : IVec S_ 1 := constantI S_ 1 1#1
  let main_v12 : IVec S_ 1 := (fun x v => Host.reduce IntOp.andi x v reducesTo_S300000x1_S_d0_1 h_S_) main_v11 main_c_3
  let main_v13 : IVec S_ 1 := andi main_v8 main_v12
  let main_v14 : FVec F S1x256 .f32 := Host.absf main_arg5
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S50000x256 : Shape := ⟨2, ![50000, 256]⟩
abbrev S2x300000 : Shape := ⟨2, ![2, 300000]⟩
abbrev S300000x1 : Shape := ⟨2, ![300000, 1]⟩
abbrev S1x256 : Shape := ⟨2, ![1, 256]⟩
abbrev S256 : Shape := ⟨1, ![256]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x256 : Shape := ⟨2, ![300000, 256]⟩
abbrev S2000x256 : Shape := ⟨2, ![2000, 256]⟩
abbrev S2000 : Shape := ⟨1, ![2000]⟩
abbrev S2000x1 : Shape := ⟨2, ![2000, 1]⟩

abbrev nBuf : Space → Nat
  | .hbm => 81
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S2x300000, .i32⟩
  | .hbm, ⟨3, _⟩ => ⟨S2x300000, .i32⟩
  | .hbm, ⟨4, _⟩ => ⟨S300000x1, .f32⟩
  | .hbm, ⟨5, _⟩ => ⟨S1x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S1x300000, .i32⟩
  | .hbm, ⟨22, _⟩ => ⟨S300000, .i32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S300000x256, .f32⟩
  | .hbm, ⟨33, _⟩ => ⟨S1x256, .f32⟩
  | .hbm, ⟨34, _⟩ => ⟨S300000x256, .f32⟩
  | .hbm, ⟨35, _⟩ => ⟨S300000x256, .f32⟩
  | .hbm, ⟨36, _⟩ => ⟨S300000x256, .f32⟩
  | .hbm, ⟨37, _⟩ => ⟨S_, .f32⟩
  | .hbm, ⟨38, _⟩ => ⟨S300000x256, .f32⟩
  | .hbm, ⟨39, _⟩ => ⟨S300000x256, .f32⟩
  | .hbm, ⟨40, _⟩ => ⟨S1x300000, .i32⟩
  | .hbm, ⟨41, _⟩ => ⟨S300000, .i32⟩
  | .hbm, ⟨42, _⟩ => ⟨S_, .f32⟩
  | .hbm, ⟨43, _⟩ => ⟨S50000x256, .f32⟩
  | .hbm, ⟨44, _⟩ => ⟨S300000x1, .i32⟩
  | .hbm, ⟨45, _⟩ => ⟨S50000x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S50000x256, .f32⟩
  | .hbm, ⟨51, _⟩ => ⟨S1x300000, .i32⟩
  | .hbm, ⟨52, _⟩ => ⟨S300000, .i32⟩
  | .hbm, ⟨53, _⟩ => ⟨S_, .i32⟩
  | .hbm, ⟨54, _⟩ => ⟨S300000, .i32⟩
  | .hbm, ⟨55, _⟩ => ⟨S300000, .i1⟩
  | .hbm, ⟨56, _⟩ => ⟨S_, .i32⟩
  | .hbm, ⟨57, _⟩ => ⟨S300000, .i32⟩
  | .hbm, ⟨58, _⟩ => ⟨S300000, .i32⟩
  | .hbm, ⟨59, _⟩ => ⟨S300000, .i32⟩
  | .hbm, ⟨60, _⟩ => ⟨S300000x1, .i32⟩
  | .hbm, ⟨61, _⟩ => ⟨S300000x256, .f32⟩
  | .hbm, ⟨62, _⟩ => ⟨S300000x256, .f32⟩
  | .hbm, ⟨63, _⟩ => ⟨S1x256, .f32⟩
  | .hbm, ⟨64, _⟩ => ⟨S300000x256, .f32⟩
  | .hbm, ⟨65, _⟩ => ⟨S300000x256, .f32⟩
  | .hbm, ⟨66, _⟩ => ⟨S300000x256, .f32⟩
  | .hbm, ⟨67, _⟩ => ⟨S_, .f32⟩
  | .hbm, ⟨68, _⟩ => ⟨S300000x256, .f32⟩
  | .hbm, ⟨69, _⟩ => ⟨S300000x256, .f32⟩
  | .hbm, ⟨70, _⟩ => ⟨S1x300000, .i32⟩
  | .hbm, ⟨71, _⟩ => ⟨S300000, .i32⟩
  | .hbm, ⟨72, _⟩ => ⟨S_, .f32⟩
  | .hbm, ⟨73, _⟩ => ⟨S50000x256, .f32⟩
  | .hbm, ⟨74, _⟩ => ⟨S300000x1, .i32⟩
  | .hbm, ⟨75, _⟩ => ⟨S50000x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call0_cst : Ref sig .tc := ⟨.hbm, 37, rfl⟩
abbrev main_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_1 : Ref sig .tc := ⟨.hbm, 53, rfl⟩
abbrev main_v27 : Ref sig .tc := ⟨.hbm, 54, rfl⟩
abbrev main_v28 : Ref sig .tc := ⟨.hbm, 55, rfl⟩
abbrev main_c_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call1_cst : Ref sig .tc := ⟨.hbm, 67, rfl⟩
abbrev main_call1_v0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_3 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  slices_S2x300000_S1x300000_1_0 : S2x300000.Slices ![1, 0] S1x300000
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  gather_S50000x256_S300000x1_S300000x256_1_0_n_n_0_1_1256_wf : GatherDims.WF S50000x256 S300000x1 S300000x256 [1] [0] [] [0] [] 1 ![1, 256]
  dot_S300000x1_S1x256_S300000x256_1_0_0_1_n_n_wf : DotDims.WF S300000x1 S1x256 S300000x256 [1] [0] [0] [1] [] []
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x1_S1x256_S300000x256_1_0_0_1_n_n : DotDims S300000x1 S1x256 S300000x256 where
  lhsContracting := [1]
  rhsContracting := [0]
  lhsNonContracting := [0]
  rhsNonContracting := [1]
  lhsBatch := []
  rhsBatch := []
  wf := dot_S300000x1_S1x256_S300000x256_1_0_0_1_n_n_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S300000x1 : Shape := ⟨2, ![300000, 1]⟩
abbrev S1x256 : Shape := ⟨2, ![1, 256]⟩
abbrev S256 : Shape := ⟨1, ![256]⟩
abbrev S256x256 : Shape := ⟨2, ![256, 256]⟩
abbrev S300000x256 : Shape := ⟨2, ![300000, 256]⟩
abbrev S1x300000 : Shape := ⟨2, ![1, 300000]⟩
abbrev S300000 : Shape := ⟨1, ![300000]⟩
abbrev S_ : Shape := ⟨0, ![]⟩
abbrev S50000 : Shape := ⟨1, ![50000]⟩
abbrev S50000x1 : Shape := ⟨2, ![50000, 1]⟩

abbrev nBuf : Space → Nat
  | .hbm => 155
  | .vmem => 0
  | .smem => 0
  | _ => 0

abbrev hbmTy0_0 (i : Nat) : BufTy := match i % 128 with
  | 0 => ⟨S50000x256, .f32⟩
  | 1 => ⟨S50000x256, .f32⟩
  | 2 => ⟨S2x300000, .i32⟩
  | 3 => ⟨S2x300000, .i32⟩
  | 4 => ⟨S300000x1, .f32⟩
  | 5 => ⟨S1x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S1x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256, .f32⟩
  | 18 => ⟨S256, .f32⟩
  | 19 => ⟨S256, .f32⟩
  | 20 => ⟨S256, .f32⟩
  | 21 => ⟨S300000x256, .f32⟩
  | 22 => ⟨S1x256, .f32⟩
  | 23 => ⟨S300000x256, .f32⟩
  | 24 => ⟨S300000x256, .f32⟩
  | 25 => ⟨S1x300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x256, .f32⟩
  | 36 => ⟨S300000x256, .f32⟩
  | 37 => ⟨S_, .f32⟩
  | 38 => ⟨S300000x256, .f32⟩
  | 39 => ⟨S300000x256, .f32⟩
  | 40 => ⟨S1x300000, .i32⟩
  | 41 => ⟨S300000, .i32⟩
  | 42 => ⟨S_, .f32⟩
  | 43 => ⟨S50000x256, .f32⟩
  | 44 => ⟨S300000x1, .i32⟩
  | 45 => ⟨S50000x256, .f32⟩
  | 46 => ⟨S50000x256, .f32⟩
  | 47 => ⟨S50000x256, .f32⟩
  | 48 => ⟨S1x256, .f32⟩
  | 49 => ⟨S50000x256, .f32⟩
  | 50 => ⟨S50000x256, .f32⟩
  | 51 => ⟨S_, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S50000x256, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x256, .f32⟩
  | 66 => ⟨S50000x256, .f32⟩
  | 67 => ⟨S50000x256, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x256, .f32⟩
  | 75 => ⟨S50000x256, .f32⟩
  | 76 => ⟨S_, .f32⟩
  | 77 => ⟨S50000x1, .f32⟩
  | 78 => ⟨S50000x1, .f32⟩
  | 79 => ⟨S50000x1, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S300000x256, .f32⟩
  | 89 => ⟨S1x256, .f32⟩
  | 90 => ⟨S300000x256, .f32⟩
  | 91 => ⟨S300000x256, .f32⟩
  | 92 => ⟨S1x300000, .i32⟩
  | 93 => ⟨S300000, .i32⟩
  | 94 => ⟨S_, .i32⟩
  | 95 => ⟨S300000, .i32⟩
  | 96 => ⟨S300000, .i1⟩
  | 97 => ⟨S_, .i32⟩
  | 98 => ⟨S300000, .i32⟩
  | 99 => ⟨S300000, .i32⟩
  | 100 => ⟨S300000, .i32⟩
  | 101 => ⟨S300000x1, .i32⟩
  | 102 => ⟨S300000x256, .f32⟩
  | 103 => ⟨S300000x256, .f32⟩
  | 104 => ⟨S_, .f32⟩
  | 105 => ⟨S300000x256, .f32⟩
  | 106 => ⟨S300000x256, .f32⟩
  | 107 => ⟨S1x300000, .i32⟩
  | 108 => ⟨S300000, .i32⟩
  | 109 => ⟨S_, .f32⟩
  | 110 => ⟨S50000x256, .f32⟩
  | 111 => ⟨S300000x1, .i32⟩
  | 112 => ⟨S50000x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S50000x256, .f32⟩
  | 126 => ⟨S_, .f32⟩
  | 127 => ⟨S50000, .f32⟩
  | _ => ⟨S50000x256, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x256, .f32⟩
  | 5 => ⟨S50000x256, .f32⟩
  | 6 => ⟨S50000x256, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x256, .f32⟩
  | 14 => ⟨S50000x256, .f32⟩
  | 15 => ⟨S_, .f32⟩
  | 16 => ⟨S50000x1, .f32⟩
  | 17 => ⟨S50000x1, .f32⟩
  | 18 => ⟨S50000x1, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_call0_cst : Ref sig .tc := ⟨.hbm, 37, rfl⟩
abbrev main_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call1_cst : Ref sig .tc := ⟨.hbm, 51, rfl⟩
abbrev main_call1_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_6 : Ref sig .tc := ⟨.hbm, 94, rfl⟩
abbrev main_v61 : Ref sig .tc := ⟨.hbm, 95, rfl⟩
abbrev main_v62 : Ref sig .tc := ⟨.hbm, 96, rfl⟩
abbrev main_c_7 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call2_cst : Ref sig .tc := ⟨.hbm, 104, rfl⟩
abbrev main_call2_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_8 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call3_cst : Ref sig .tc := ⟨.hbm, 118, rfl⟩
abbrev main_call3_v0 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_9 : Ref sig .tc := ⟨.hbm, 126, rfl⟩
abbrev main_v86 : Ref sig .tc := ⟨.hbm, 127, rfl⟩
abbrev main_v87 : Ref sig .tc := ⟨.hbm, 128, rfl⟩
abbrev main_cst_10 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_11 : Ref sig .tc := ⟨.hbm, 135, rfl⟩
abbrev main_v93 : Ref sig .tc := ⟨.hbm, 136, rfl⟩
abbrev main_v94 : Ref sig .tc := ⟨.hbm, 137, rfl⟩
abbrev main_cst_12 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_13 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  slices_S2x300000_S1x300000_1_0 : S2x300000.Slices ![1, 0] S1x300000
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S300000x1_S1x256_S300000x256_1_0_0_1_n_n_wf : DotDims.WF S300000x1 S1x256 S300000x256 [1] [0] [0] [1] [] []
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []

variable [Facts₀]

def dot_S300000x1_S1x256_S300000x256_1_0_0_1_n_n : DotDims S300000x1 S1x256 S300000x256 where
  lhsContracting := [1]
  rhsContracting := [0]
  lhsNonContracting := [0]
  rhsNonContracting := [1]
  lhsBatch := []
  rhsBatch := []
  wf := dot_S300000x1_S1x256_S300000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelBounds.lean ====
/-
  What the segment boundaries hold, read back to the launch memory.

  The program is: a stretch of host operations (the first aggregation), the first node update (a grid of 25
  row blocks), a second stretch (the second aggregation, which gathers from the first update's output), the
  second node update. Here: the two result buffers at the last boundary are the two updates' output arrays
  as their pipelines leave them, and each update's operand arrays at its entry are the launch arrays, the
  aggregation of them, and the four bias / scale rows recast from [256] to [1, 256].
-/
import proofs.«413193_j59365037965999_3_alg».proof.Proof.Gen.KernelIdeal.Frame
import Idealize.ShloMosaic.Lib.StableHlo.Run

set_option maxRecDepth 16384

noncomputable section

namespace Cert.KernelIdeal.Bounds

open Idealize.ShloMosaic Idealize.ShloMosaic.TcCoe Idealize.ShloMosaic.Tactic Idealize.ShloMosaic.StableHlo
open Idealize.SL.Sem
open Idealize.ShloMosaic.Pipeline (Dat Cfg Window)
open Cert.KernelIdeal Cert.KernelIdeal.Gen

variable {F : FTy → Type} [FloatOps F]

/-- The edge aggregation as one function: gather the source rows the (normalised) first index row names, add
    the edge's linear term `edge_attr · We + be`, rectify, and scatter-add onto the rows the second index row
    names, from zero. -/
def aggK (src : Vec F S50000x256 .f32) (ei : IVec S2x300000 32) (ea : Vec F S300000x1 .f32) (We : Vec F S1x256 .f32)
    (be : Vec F S256 .f32) : Vec F S50000x256 .f32 :=
  Host.scatterAdd scatter_S50000x256_S300000x1_S300000x256_1_0_0_1
    (broadcastInDim S50000x256 ![] bcast_S_S50000x256 (constant S_ .f32 0x00000000#32))
    (broadcastInDim S300000x1 ![0] bcast_S300000_S300000x1_0
      (shapeCast _ (extractStridedSlice S1x300000 ![1, 0] ei slices_S2x300000_S1x300000_1_0) shapeCasts_S1x300000_S300000))
    (maximumf
      (addf
        (Host.gather gather_S50000x256_S300000x1_S300000x256_1_0_n_n_0_1_1256 src
          (broadcastInDim S300000x1 ![0] bcast_S300000_S300000x1_0
            (select
              (cmpi .slt (shapeCast _ (extractStridedSlice S1x300000 ![0, 0] ei slices_S2x300000_S1x300000_0_0) shapeCasts_S1x300000_S300000)
                (broadcastInDim S300000 ![] bcast_S_S300000 (constantI S_ 32 0#32)))
              (addi (shapeCast _ (extractStridedSlice S1x300000 ![0, 0] ei slices_S2x300000_S1x300000_0_0) shapeCasts_S1x300000_S300000)
                (broadcastInDim S300000 ![] bcast_S_S300000 (constantI S_ 32 50000#32)))
              (shapeCast _ (extractStridedSlice S1x300000 ![0, 0] ei slices_S2x300000_S1x300000_0_0) shapeCasts_S1x300000_S300000))))
        (addf (Host.dotGeneral dot_S300000x1_S1x256_S300000x256_1_0_0_1_n_n none ea We)
          (broadcastInDim S300000x256 ![0, 1] bcast_S1x256_S300000x256_0_1 (broadcastInDim S1x256 ![1] bcast_S256_S1x256_1 be))))
      (broadcastInDim S300000x256 ![] bcast_S_S300000x256 (constant S_ .f32 0x00000000#32)))

variable (m : (ℓ : Loc nD τ sig) → Buf (Elt F) ℓ) (ρ : Dev nD → PrngReg)

/-! ## Buffers a stretch of host operations leaves alone -/

/-- Closes `∀ op ∈ ops, b ∉ op.writes` for a literal stretch `ops` and a literal reference `b`: every operation
    writes the one buffer it names, and that name differs from `b`. -/
local macro "unwritten " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- A buffer none of the three stretches before the first update writes holds, at the update's entry, what the
    launch memory holds. -/
theorem W3_eq_launch (c : Dev nD) (b : Ref sig .tc)
    (h2 : ∀ op ∈ (hostOps0_2 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h0 : ∀ op ∈ (hostOps0 : List (HloOp τ sig (Elt F))), (Proc.devRef .tc b : DevRef τ sig) ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- The same at the first update's exit, for a buffer that is moreover none of the update's arrays. -/
theorem W4_eq_launch (c : Dev nD) (b : Ref sig .tc) (hb : ∀ w, Pipeline.arrRef spec0 w ≠ b)
    (h2 : ∀ op ∈ (hostOps0_2 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h0 : ∀ op ∈ (hostOps0 : List (HloOp τ sig (Elt F))), (Proc.devRef .tc b : DevRef τ sig) ∉ op.writes) :
    W4 m ρ c (Proc.devRef .tc b) = m ((c : Thread nD τ).loc b) :=
  (W4_of_ne m ρ c b hb).trans (W3_eq_launch m ρ c b h2 h1 h0)

/-- A buffer none of the three stretches between the updates writes holds, at the second update's entry, what
    it held at the first update's exit. -/
theorem W7_eq_W4 (c : Dev nD) (b : Ref sig .tc)
    (h2 : ∀ op ∈ (hostOps1_2 : List (HloOp τ sig (Elt F))), (Proc.devRef .tc b : DevRef τ sig) ∉ op.writes)
    (h1 : ∀ op ∈ (hostOps1_1 : List (HloOp τ sig (Elt F))), (Proc.devRef .tc b : DevRef τ sig) ∉ op.writes)
    (h0 : ∀ op ∈ (hostOps1 : List (HloOp τ sig (Elt F))), (Proc.devRef .tc b : DevRef τ sig) ∉ op.writes) :
    W7 m ρ c (Proc.devRef .tc b) = W4 m ρ c (Proc.devRef .tc b) :=
  calc W7 m ρ c (Proc.devRef .tc b)
    _ = W6 m ρ c (Proc.devRef .tc b) := StableHlo.after_of_forall_not_mem _ _ h2
    _ = W5 m ρ c (Proc.devRef .tc b) := StableHlo.after_of_forall_not_mem _ _ h1
    _ = W4 m ρ c (Proc.devRef .tc b) := StableHlo.after_of_forall_not_mem _ _ h0

/-! ## The two results at the last boundary -/

/-- The second update's output array is the last region's own: what its pipeline leaves. -/
theorem W8_v49 (c : Dev nD) : W8 m ρ c (Proc.devRef .tc main_v49) = (dat1 (V7 m ρ) c).arrAt 8 cfg1.N :=
  W8_arr m ρ c 8

/-- The first update's output array is written by the first region and by nothing after it (the second
    stretch and the second region only read it). -/
theorem W8_v24 (c : Dev nD) : W8 m ρ c (Proc.devRef .tc main_v24) = (dat0 (V3 m ρ) c).arrAt 8 cfg0.N :=
  calc W8 m ρ c (Proc.devRef .tc main_v24)
    _ = W7 m ρ c (Proc.devRef .tc main_v24) := W8_of_ne m ρ c main_v24 (by decide)
    _ = W4 m ρ c (Proc.devRef .tc main_v24) :=
        W7_eq_W4 m ρ c main_v24 (by unwritten hostOps1_2) (by unwritten hostOps1_1) (by unwritten hostOps1)
    _ = (dat0 (V3 m ρ) c).arrAt 8 cfg0.N := W4_arr m ρ c 8

/-! ## The first update's operand arrays at its entry -/

theorem V3_arg1 (c : Dev nD) : V3 m ρ c main_arg1 = m ((c : Thread nD τ).loc main_arg1) :=
  W3_eq_launch m ρ c main_arg1 (by unwritten hostOps0_2) (by unwritten hostOps0_1) (by unwritten hostOps0)
theorem V3_arg7 (c : Dev nD) : V3 m ρ c main_arg7 = m ((c : Thread nD τ).loc main_arg7) :=
  W3_eq_launch m ρ c main_arg7 (by unwritten hostOps0_2) (by unwritten hostOps0_1) (by unwritten hostOps0)
theorem V3_arg9 (c : Dev nD) : V3 m ρ c main_arg9 = m ((c : Thread nD τ).loc main_arg9) :=
  W3_eq_launch m ρ c main_arg9 (by unwritten hostOps0_2) (by unwritten hostOps0_1) (by unwritten hostOps0)
theorem V3_v19 (c : Dev nD) : V3 m ρ c main_v19 = aggK (F := F) (m ((c : Thread nD τ).loc main_arg0)) (m ((c : Thread nD τ).loc main_arg2)) (m ((c : Thread nD τ).loc main_arg4)) (m ((c : Thread nD τ).loc main_arg5)) (m ((c : Thread nD τ).loc main_arg6)) := by
  show StableHlo.after hostOps0_2 (StableHlo.after hostOps0_1 (StableHlo.after hostOps0 (W0 m ρ c))) (Proc.devRef .tc main_v19) = _
  unfold aggK
  after_results_simp
  rfl
theorem V3_v20 (c : Dev nD) : V3 m ρ c main_v20 = shapeCast S1x256 (m ((c : Thread nD τ).loc main_arg8)) shapeCasts_S256_S1x256 := by
  show StableHlo.after hostOps0_2 (StableHlo.after hostOps0_1 (StableHlo.after hostOps0 (W0 m ρ c))) (Proc.devRef .tc main_v20) = _
  after_results
  rfl
theorem V3_v21 (c : Dev nD) : V3 m ρ c main_v21 = shapeCast S1x256 (m ((c : Thread nD τ).loc main_arg10)) shapeCasts_S256_S1x256 := by
  show StableHlo.after hostOps0_2 (StableHlo.after hostOps0_1 (StableHlo.after hostOps0 (W0 m ρ c))) (Proc.devRef .tc main_v21) = _
  after_results
  rfl
theorem V3_v22 (c : Dev nD) : V3 m ρ c main_v22 = shapeCast S1x256 (m ((c : Thread nD τ).loc main_arg17)) shapeCasts_S256_S1x256 := by
  show StableHlo.after hostOps0_2 (StableHlo.after hostOps0_1 (StableHlo.after hostOps0 (W0 m ρ c))) (Proc.devRef .tc main_v22) = _
  after_results
  rfl
theorem V3_v23 (c : Dev nD) : V3 m ρ c main_v23 = shapeCast S1x256 (m ((c : Thread nD τ).loc main_arg18)) shapeCasts_S256_S1x256 := by
  show StableHlo.after hostOps0_2 (StableHlo.after hostOps0_1 (StableHlo.after hostOps0 (W0 m ρ c))) (Proc.devRef .tc main_v23) = _
  after_results
  rfl

/-! ## The second update's operand arrays at its entry -/

/-- The first update's output array at its exit: what its pipeline leaves. -/
theorem W4_v24 (c : Dev nD) : W4 m ρ c (Proc.devRef .tc main_v24) = (dat0 (V3 m ρ) c).arrAt 8 cfg0.N :=
  W4_arr m ρ c 8
theorem W4_arg3 (c : Dev nD) : W4 m ρ c (Proc.devRef .tc main_arg3) = m ((c : Thread nD τ).loc main_arg3) :=
  W4_eq_launch m ρ c main_arg3 (by decide) (by unwritten hostOps0_2) (by unwritten hostOps0_1) (by unwritten hostOps0)
theorem W4_arg4 (c : Dev nD) : W4 m ρ c (Proc.devRef .tc main_arg4) = m ((c : Thread nD τ).loc main_arg4) :=
  W4_eq_launch m ρ c main_arg4 (by decide) (by unwritten hostOps0_2) (by unwritten hostOps0_1) (by unwritten hostOps0)
theorem W4_arg11 (c : Dev nD) : W4 m ρ c (Proc.devRef .tc main_arg11) = m ((c : Thread nD τ).loc main_arg11) :=
  W4_eq_launch m ρ c main_arg11 (by decide) (by unwritten hostOps0_2) (by unwritten hostOps0_1) (by unwritten hostOps0)
theorem W4_arg12 (c : Dev nD) : W4 m ρ c (Proc.devRef .tc main_arg12) = m ((c : Thread nD τ).loc main_arg12) :=
  W4_eq_launch m ρ c main_arg12 (by decide) (by unwritten hostOps0_2) (by unwritten hostOps0_1) (by unwritten hostOps0)
theorem W4_arg14 (c : Dev nD) : W4 m ρ c (Proc.devRef .tc main_arg14) = m ((c : Thread nD τ).loc main_arg14) :=
  W4_eq_launch m ρ c main_arg14 (by decide) (by unwritten hostOps0_2) (by unwritten hostOps0_1) (by unwritten hostOps0)
theorem W4_arg16 (c : Dev nD) : W4 m ρ c (Proc.devRef .tc main_arg16) = m ((c : Thread nD τ).loc main_arg16) :=
  W4_eq_launch m ρ c main_arg16 (by decide) (by unwritten hostOps0_2) (by unwritten hostOps0_1) (by unwritten hostOps0)
theorem W4_arg19 (c : Dev nD) : W4 m ρ c (Proc.devRef .tc main_arg19) = m ((c : Thread nD τ).loc main_arg19) :=
  W4_eq_launch m ρ c main_arg19 (by decide) (by unwritten hostOps0_2) (by unwritten hostOps0_1) (by unwritten hostOps0)
theorem W4_arg20 (c : Dev nD) : W4 m ρ c (Proc.devRef .tc main_arg20) = m ((c : Thread nD τ).loc main_arg20) :=
  W4_eq_launch m ρ c main_arg20 (by decide) (by unwritten hostOps0_2) (by unwritten hostOps0_1) (by unwritten hostOps0)

theorem V7_arg0 (c : Dev nD) : V7 m ρ c main_arg0 = m ((c : Thread nD τ).loc main_arg0) :=
  (W7_eq_W4 m ρ c main_arg0 (by unwritten hostOps1_2) (by unwritten hostOps1_1) (by unwritten hostOps1)).trans
    (W4_eq_launch m ρ c main_arg0 (by decide) (by unwritten hostOps0_2) (by unwritten hostOps0_1) (by unwritten hostOps0))
theorem V7_arg13 (c : Dev nD) : V7 m ρ c main_arg13 = m ((c : Thread nD τ).loc main_arg13) :=
  (W7_eq_W4 m ρ c main_arg13 (by unwritten hostOps1_2) (by unwritten hostOps1_1) (by unwritten hostOps1)).trans
    (W4_eq_launch m ρ c main_arg13 (by decide) (by unwritten hostOps0_2) (by unwritten hostOps0_1) (by unwritten hostOps0))
theorem V7_arg15 (c : Dev nD) : V7 m ρ c main_arg15 = m ((c : Thread nD τ).loc main_arg15) :=
  (W7_eq_W4 m ρ c main_arg15 (by unwritten hostOps1_2) (by unwritten hostOps1_1) (by unwritten hostOps1)).trans
    (W4_eq_launch m ρ c main_arg15 (by decide) (by unwritten hostOps0_2) (by unwritten hostOps0_1) (by unwritten hostOps0))
/-- The second aggregation gathers from the first update's output array. -/
theorem V7_v44 (c : Dev nD) : V7 m ρ c main_v44 = aggK (F := F) ((dat0 (V3 m ρ) c).arrAt 8 cfg0.N) (m ((c : Thread nD τ).loc main_arg3)) (m ((c : Thread nD τ).loc main_arg4)) (m ((c : Thread nD τ).loc main_arg11)) (m ((c : Thread nD τ).loc main_arg12)) := by
  show StableHlo.after hostOps1_2 (StableHlo.after hostOps1_1 (StableHlo.after hostOps1 (W4 m ρ c))) (Proc.devRef .tc main_v44) = _
  unfold aggK
  after_results_simp
  rw [W4_v24, W4_arg3, W4_arg4, W4_arg11, W4_arg12]
  rfl
theorem V7_v45 (c : Dev nD) : V7 m ρ c main_v45 = shapeCast S1x256 (m ((c : Thread nD τ).loc main_arg14)) shapeCasts_S256_S1x256 := by
  show StableHlo.after hostOps1_2 (StableHlo.after hostOps1_1 (StableHlo.after hostOps1 (W4 m ρ c))) (Proc.devRef .tc main_v45) = _
  after_results
  rw [W4_arg14]
  rfl
theorem V7_v46 (c : Dev nD) : V7 m ρ c main_v46 = shapeCast S1x256 (m ((c : Thread nD τ).loc main_arg16)) shapeCasts_S256_S1x256 := by
  show StableHlo.after hostOps1_2 (StableHlo.after hostOps1_1 (StableHlo.after hostOps1 (W4 m ρ c))) (Proc.devRef .tc main_v46) = _
  after_results
  rw [W4_arg16]
  rfl
theorem V7_v47 (c : Dev nD) : V7 m ρ c main_v47 = shapeCast S1x256 (m ((c : Thread nD τ).loc main_arg19)) shapeCasts_S256_S1x256 := by
  show StableHlo.after hostOps1_2 (StableHlo.after hostOps1_1 (StableHlo.after hostOps1 (W4 m ρ c))) (Proc.devRef .tc main_v47) = _
  after_results
  rw [W4_arg19]
  rfl
theorem V7_v48 (c : Dev nD) : V7 m ρ c main_v48 = shapeCast S1x256 (m ((c : Thread nD τ).loc main_arg20)) shapeCasts_S256_S1x256 := by
  show StableHlo.after hostOps1_2 (StableHlo.after hostOps1_1 (StableHlo.after hostOps1 (W4 m ρ c))) (Proc.devRef .tc main_v48) = _
  after_results
  rw [W4_arg20]
  rfl

end Cert.KernelIdeal.Bounds

end
-- ==== Proof.NodeUpdate.lean ====
/-
  One row of the node update, as a function on the extended reals.

  A row `x` of the destination features and the row `a` aggregated onto it pass through a two-layer
  perceptron on their sum, `h = x + a`: the hidden layer is `max (h · Wa + ba) 0`, the output layer
  `hidden · Wb + bb`; the result is added back to `x` (the residual) and the row is normalised: with
  `μ` the mean of the 256 entries and `σ²` the mean of the squared deviations, entry `j` ends as
  `(v j - μ) · rsqrt (σ² + ε) · g j + β j`.

  The three literals (the zero of the rectifier, the divisor 256 of the two means, ε) stay the
  words the programs print: both programs print the same words, so none is ever evaluated.
-/
import Idealize.ShloMosaic.PureOps.Ideal
import Idealize.ShloMosaic.PureOps.Ideal.Laws

noncomputable section

namespace Cert.NodeUpdate

open Idealize.ShloMosaic

/-- The rectifier's threshold, the word `0.0`. -/
abbrev zeroLit : EReal := Ideal.ofBits .f32 0x00000000#32
/-- The divisor of both means, the word `256.0`. -/
abbrev widthLit : EReal := Ideal.ofBits .f32 0x43800000#32
/-- The variance's offset ε, the word `9.99999974E-6`. -/
abbrev epsLit : EReal := Ideal.ofBits .f32 0x3727C5AC#32

/-- Entry `j` of the hidden layer of the row `x + a`: `max (∑ₖ (x k + a k) · Wa k j + ba j) 0`. -/
def hidden (x a : Fin 256 → EReal) (Wa : Fin 256 → Fin 256 → EReal) (ba : Fin 256 → EReal) (j : Fin 256) : EReal :=
  max ((∑ k : Fin 256, (x k + a k) * Wa k j) + ba j) zeroLit

/-- Entry `j` of the row before normalisation: `x j + (∑ₖ hidden k · Wb k j + bb j)`. -/
def resid (x a : Fin 256 → EReal) (Wa : Fin 256 → Fin 256 → EReal) (ba : Fin 256 → EReal)
    (Wb : Fin 256 → Fin 256 → EReal) (bb : Fin 256 → EReal) (j : Fin 256) : EReal :=
  x j + ((∑ k : Fin 256, hidden x a Wa ba k * Wb k j) + bb j)

/-- The mean of a row's 256 entries: their sum divided by the word `256.0`. -/
def mean (v : Fin 256 → EReal) : EReal := Ideal.div (∑ j : Fin 256, v j) widthLit

/-- The reciprocal standard deviation of a row: `rsqrt (mean of (v - μ)² + ε)`. -/
def invStd (v : Fin 256 → EReal) : EReal :=
  Ideal.rsqrt (mean (fun k => (v k - mean v) * (v k - mean v)) + epsLit)

/-- Entry `j` of the normalised row: `(v j - μ) · invStd · g j + β j`. -/
def layerNorm (v g β : Fin 256 → EReal) (j : Fin 256) : EReal :=
  (v j - mean v) * invStd v * g j + β j

/-- Entry `j` of the updated row. -/
def row (x a : Fin 256 → EReal) (Wa : Fin 256 → Fin 256 → EReal) (ba : Fin 256 → EReal)
    (Wb : Fin 256 → Fin 256 → EReal) (bb g β : Fin 256 → EReal) (j : Fin 256) : EReal :=
  layerNorm (resid x a Wa ba Wb bb) g β j

end Cert.NodeUpdate

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KernelRow.lean ====
/-
  The kernel body's stored value, entry by entry.

  The body loads a block of 2000 rows of the destination features (`x`) and of the aggregated messages (`a`),
  the two 256 × 256 weight matrices and the four 1 × 256 rows (two biases, scale, shift), and stores ONE
  2000 × 256 value. Entry (p, q) of that value depends on row p of the two blocks only: it is the node
  update of that row (`Cert.NodeUpdate.row`). The two matrix products are sums over the 256 contracted
  coordinates (the accumulator is the zero word), the two lane reductions are sums over the row, the
  changes of format are the identity on the extended reals, and the kept-dimension column [2000, 1] is read
  at its one column.
-/
import proofs.«413193_j59365037965999_3_alg».proof.Proof.Gen.KernelIdeal.Skeleton
import proofs.«413193_j59365037965999_3_alg».proof.Proof.NodeUpdate
import proofs.«413193_j59365037965999_3_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Row

open Idealize.ShloMosaic Idealize.ShloMosaic.ValueIdx
open Cert.KernelIdeal Cert.KernelIdeal.Gen Cert.NodeUpdate Cert.Lib.Columns

/-! ## The product of a 2000 × 256 block with a 256 × 256 matrix, at an entry -/

theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into the zero accumulator, entry (p, q) of the product is `∑ₖ l (p, k) · r (k, q)`. -/
theorem matmul_zero_apply {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## A lane sum of a 2000 × 256 value, at a row -/

/-- The index over row `p` with the lane coordinate `k` put back is (p, k). -/
theorem lift_row (p : Fin 2000) (k : Fin 256) : reduces_S2000x256_S2000.lift (ix1 p) k = ix2 p k :=
  funext fun a => Fin.ext (by
    match a with
    | ⟨0, _⟩ => rfl
    | ⟨1, _⟩ => rfl)

/-- The sum over the lanes, kept as a column, read at (p, 0): `∑ₖ v (p, k)`. -/
theorem laneSum_apply (v : FVec Ideal S2000x256 .f32) (hφ : FKind.Formats .f32)
    (hacc : (0x00000000#32 : BitVec 32) = 0x00000000#32) (p : Fin 2000) :
    shapeCast S2000x1 (multiReduction .add [1] S2000 v 0x00000000#32 reduces_S2000x256_S2000 hφ hacc) shapeCasts_S2000_S2000x1 (ix2 p (0 : Fin 1))
      = ∑ k : Fin 256, v (ix2 p k) := by
  refine (shapeCast_a_a1_apply _ shapeCasts_S2000_S2000x1 p 0).trans ?_
  refine (Ideal.multiReduction_add_single v 0x00000000#32 reduces_S2000x256_S2000 hφ hacc (ix1 p)).trans ?_
  exact Finset.sum_congr rfl fun k _ => congrArg v (lift_row p k)

/-! ## The body's values -/

variable (x a : Vec Ideal S2000x256 .f32) (wa wb : Vec Ideal S256x256 .f32) (ba bb g β : Vec Ideal S1x256 .f32)

/-- Row `p` of a block. -/
abbrev rowOf (v : Vec Ideal S2000x256 .f32) (p : Fin 2000) : Fin 256 → EReal := fun k => v (ix2 p k)
/-- A weight matrix by its two coordinates. -/
abbrev matOf (w : Vec Ideal S256x256 .f32) : Fin 256 → Fin 256 → EReal := fun k j => w (ix2 k j)
/-- A 1 × 256 row by its coordinate. -/
abbrev vecOf (b : Vec Ideal S1x256 .f32) : Fin 256 → EReal := fun j => b (ix2 (0 : Fin 1) j)

/-- The hidden layer at (p, j): the product's sum, the bias row, the rectifier. -/
theorem hidden_apply (p : Fin 2000) (j : Fin 256) :
    maximumf (addf (matmul dot_S2000x256_S256x256_S2000x256_1_0_0_1_n_n none (truncf .bf16 (addf x a) bitsLt_bf16_f32) (truncf .bf16 wa bitsLt_bf16_f32) (constant S2000x256 .f32 0x00000000#32))
        (broadcastTo S2000x256 ba broadcasts_S1x256_S2000x256)) (broadcast S2000x256 (Scalar.ofBits (F := Ideal) .f32 0x00000000#32)) (ix2 p j)
      = hidden (rowOf x p) (rowOf a p) (matOf wa) (vecOf ba) j := by
  rw [maximumf_apply, addf_apply, matmul_zero_apply, broadcastTo_1b_ab_apply]
  rfl

/-- The body's value before normalisation, with the casts that change nothing removed. -/
theorem pay2_eq :
    k0_pay2 (F := Ideal) x a wa wb ba bb
      = addf x (addf (matmul dot_S2000x256_S256x256_S2000x256_1_0_0_1_n_n none
          (truncf .bf16 (maximumf (addf (matmul dot_S2000x256_S256x256_S2000x256_1_0_0_1_n_n none (truncf .bf16 (addf x a) bitsLt_bf16_f32) (truncf .bf16 wa bitsLt_bf16_f32) (constant S2000x256 .f32 0x00000000#32))
            (broadcastTo S2000x256 ba broadcasts_S1x256_S2000x256)) (broadcast S2000x256 (Scalar.ofBits (F := Ideal) .f32 0x00000000#32))) bitsLt_bf16_f32)
          (truncf .bf16 wb bitsLt_bf16_f32) (constant S2000x256 .f32 0x00000000#32))
          (broadcastTo S2000x256 bb broadcasts_S1x256_S2000x256)) := by
  unfold k0_pay2
  simp only [shapeCast_self]

/-- The row before normalisation, at (p, q). -/
theorem pay2_apply (p : Fin 2000) (q : Fin 256) :
    k0_pay2 (F := Ideal) x a wa wb ba bb (ix2 p q) = resid (rowOf x p) (rowOf a p) (matOf wa) (vecOf ba) (matOf wb) (vecOf bb) q := by
  rw [pay2_eq, addf_apply, addf_apply, matmul_zero_apply, broadcastTo_1b_ab_apply]
  unfold resid
  refine congrArg₂ (· + ·) rfl (congrArg₂ (· + ·) (Finset.sum_congr rfl fun k _ => congrArg₂ (· * ·) ?_ rfl) rfl)
  exact hidden_apply x a wa ba p k

/-- The row's mean, at (p, 0): the lane sum over the word 256.0. -/
theorem pay3_apply (p : Fin 2000) :
    k0_pay3 (F := Ideal) x a wa wb ba bb (ix2 p (0 : Fin 1)) = mean (resid (rowOf x p) (rowOf a p) (matOf wa) (vecOf ba) (matOf wb) (vecOf bb)) := by
  unfold k0_pay3
  dsimp only
  rw [divf_apply, laneSum_apply]
  unfold mean
  refine congrArg₂ Ideal.div (Finset.sum_congr rfl fun k _ => pay2_apply x a wa wb ba bb p k) rfl

/-- The reciprocal square root acts entry by entry. -/
theorem rsqrt_at {s : Shape} (v : FVec Ideal s .f32) (i : s.Idx) : rsqrt v i = Ideal.rsqrt (v i) := rfl

/-- The row's reciprocal standard deviation, at (p, 0). -/
theorem pay4_apply (p : Fin 2000) :
    k0_pay4 (F := Ideal) x a wa wb ba bb (ix2 p (0 : Fin 1)) = invStd (resid (rowOf x p) (rowOf a p) (matOf wa) (vecOf ba) (matOf wb) (vecOf bb)) := by
  unfold k0_pay4
  dsimp only
  rw [rsqrt_at, addf_apply, divf_apply, laneSum_apply]
  unfold invStd mean
  refine congrArg Ideal.rsqrt (congrArg₂ (· + ·) (congrArg₂ Ideal.div (Finset.sum_congr rfl fun k _ => ?_) rfl) rfl)
  rw [mulf_apply, subf_apply, broadcastTo_a1_ab_apply, pay2_apply, pay3_apply]
  rfl

/-- THE STORED VALUE at (p, q) is the node update of row p, at q. -/
theorem pay1_apply (p : Fin 2000) (q : Fin 256) :
    k0_pay1 (F := Ideal) (k0_pay2 x a wa wb ba bb) (k0_pay3 x a wa wb ba bb) (k0_pay4 x a wa wb ba bb) g β (ix2 p q)
      = row (rowOf x p) (rowOf a p) (matOf wa) (vecOf ba) (matOf wb) (vecOf bb) (vecOf g) (vecOf β) q := by
  unfold k0_pay1
  simp only [shapeCast_self]
  rw [addf_apply, mulf_apply, mulf_apply, subf_apply, broadcastTo_a1_ab_apply, broadcastTo_a1_ab_apply, broadcastTo_1b_ab_apply,
    broadcastTo_1b_ab_apply, pay2_apply, pay3_apply, pay4_apply]
  rfl

/-- The first call's stored value, under the name its region module cites. -/
theorem stored0_apply (p : Fin 2000) (q : Fin 256) :
    k0_pay1 (F := Ideal) (k0_pay2 x a wa wb ba bb) (k0_pay3 x a wa wb ba bb) (k0_pay4 x a wa wb ba bb) g β (ix2 p q)
      = row (rowOf x p) (rowOf a p) (matOf wa) (vecOf ba) (matOf wb) (vecOf bb) (vecOf g) (vecOf β) q :=
  pay1_apply x a wa wb ba bb g β p q

/-- The second call's body is the first call's operations again, on the same shapes: its stored value at
    (p, q) is the same node update of row p. -/
theorem stored1_apply (p : Fin 2000) (q : Fin 256) :
    k1_pay1 (F := Ideal) (k1_pay2 x a wa wb ba bb) (k1_pay3 x a wa wb ba bb) (k1_pay4 x a wa wb ba bb) g β (ix2 p q)
      = row (rowOf x p) (rowOf a p) (matOf wa) (vecOf ba) (matOf wb) (vecOf bb) (vecOf g) (vecOf β) q :=
  pay1_apply x a wa wb ba bb g β p q

end Cert.KernelIdeal.Row

end
-- ==== Proof.NodeUpdateArray.lean ====
/-
  The node update of every row of a 50000 × 256 array: entry (r, q) of the result is the update of row r
  (of the features and of the aggregated messages) read at q. The weights and the four rows are plain
  functions of their coordinates, so that a [256] array and a [1, 256] array both fit.
-/
import proofs.«413193_j59365037965999_3_alg».proof.Proof.NodeUpdate
import Idealize.ShloMosaic.Lib.ValueIdx

noncomputable section

namespace Cert.NodeUpdate

open Idealize.ShloMosaic Idealize.ShloMosaic.ValueIdx

/-- The update of all rows. -/
def update (x a : (⟨2, ![50000, 256]⟩ : Shape).Idx → EReal) (Wa : Fin 256 → Fin 256 → EReal) (ba : Fin 256 → EReal)
    (Wb : Fin 256 → Fin 256 → EReal) (bb g β : Fin 256 → EReal) : (⟨2, ![50000, 256]⟩ : Shape).Idx → EReal :=
  fun i => row (fun k => x (ix2 (⟨(i 0).val, (i 0).isLt⟩ : Fin 50000) k)) (fun k => a (ix2 (⟨(i 0).val, (i 0).isLt⟩ : Fin 50000) k))
    Wa ba Wb bb g β (⟨(i 1).val, (i 1).isLt⟩ : Fin 256)

/-- At (r, q) it is row r's update at q. -/
theorem update_apply (x a : (⟨2, ![50000, 256]⟩ : Shape).Idx → EReal) (Wa : Fin 256 → Fin 256 → EReal) (ba : Fin 256 → EReal)
    (Wb : Fin 256 → Fin 256 → EReal) (bb g β : Fin 256 → EReal) (r : Fin 50000) (q : Fin 256) :
    update x a Wa ba Wb bb g β (ix2 r q) = row (fun k => x (ix2 r k)) (fun k => a (ix2 r k)) Wa ba Wb bb g β q := rfl

end Cert.NodeUpdate

end
-- ==== Proof.KernelArr0.lean ====
/-
  The first node update's output array after its grid has run.

  The grid has 25 points; point t fetches rows 2000·t … 2000·t + 1999 of the features and of the aggregated
  messages, the whole weight matrices and the four 1 × 256 rows, and writes back rows 2000·t … of the
  output. What point t writes back is therefore block t of ONE function of the arrays as the region finds
  them — the node update of every row — and the 25 blocks tile the 50000 rows, so the array ends holding
  that function.
-/
import proofs.«413193_j59365037965999_3_alg».proof.Proof.Gen.KernelIdeal.Frame
import proofs.«413193_j59365037965999_3_alg».proof.Proof.KernelRow
import proofs.«413193_j59365037965999_3_alg».proof.Proof.NodeUpdateArray

set_option maxRecDepth 16384

noncomputable section

namespace Cert.KernelIdeal.Arr0

open Idealize.ShloMosaic Idealize.ShloMosaic.TcCoe Idealize.ShloMosaic.ValueIdx
open Idealize.ShloMosaic.Pipeline (Dat Cfg Window)
open Cert.KernelIdeal Cert.KernelIdeal.Gen Cert.KernelIdeal.Row Cert.NodeUpdate

variable (V : (c : Dev nD) → (b : Ref sig .tc) → Buf (Elt Ideal) ((c : Thread nD τ).loc b))

theorem hz : (![0, 0] : Fin 2 → Nat) = fun _ => 0 := funext fun a => by fin_cases a <;> rfl

/-! ## The arrays the region reads, each by its literal type -/

abbrev xArr (c : Dev nD) : Vec Ideal S50000x256 .f32 := V c main_arg1
abbrev aArr (c : Dev nD) : Vec Ideal S50000x256 .f32 := V c main_v19
abbrev waArr (c : Dev nD) : Vec Ideal S256x256 .f32 := V c main_arg7
abbrev baArr (c : Dev nD) : Vec Ideal S1x256 .f32 := V c main_v20
abbrev wbArr (c : Dev nD) : Vec Ideal S256x256 .f32 := V c main_arg9
abbrev bbArr (c : Dev nD) : Vec Ideal S1x256 .f32 := V c main_v21
abbrev gArr (c : Dev nD) : Vec Ideal S1x256 .f32 := V c main_v22
abbrev βArr (c : Dev nD) : Vec Ideal S1x256 .f32 := V c main_v23

/-- The array the region's output ends holding: the node update of every row. -/
abbrev result (c : Dev nD) : Vec Ideal S50000x256 .f32 :=
  update (xArr V c) (aArr V c) (matOf (waArr V c)) (vecOf (baArr V c)) (matOf (wbArr V c)) (vecOf (bbArr V c))
    (vecOf (gArr V c)) (vecOf (βArr V c))

/-! ## Where each window's block sits -/

/-- The printed index maps over the grid: the three row-blocked windows sit at block row t, the six whole
    windows at the origin. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_8.index t (0 : Fin 2) = t.val
    ∧ win0_8.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-- Row p of point t's block is row 2000·t + p of the array. -/
def rowIdx (t : Fin cfg0.N) (p : Fin 2000) : Fin 50000 :=
  ⟨t.val * 2000 + p.val, by have ht : t.val < 25 := lt_of_lt_of_eq t.isLt N_0; have := p.isLt; omega⟩

theorem emb_x (t : Fin cfg0.N) (p : Fin 2000) (k : Fin 256) : ((cfg0.win 0).blk t).view.emb (ix2 p k) = ix2 (rowIdx t p) k := by
  obtain ⟨e00, e01, e10, e11, e80, e81, e20, e21, e30, e31, e40, e41, e50, e51, e60, e61, e70, e71⟩ := idx_facts t
  funext d; apply Fin.ext
  match d with
  | ⟨0, _⟩ => show win0_0.index t (0 : Fin 2) * 2000 + 1 * p.val = t.val * 2000 + p.val; omega
  | ⟨1, _⟩ => show win0_0.index t (1 : Fin 2) * 256 + 1 * k.val = k.val; omega
theorem emb_a (t : Fin cfg0.N) (p : Fin 2000) (k : Fin 256) : ((cfg0.win 1).blk t).view.emb (ix2 p k) = ix2 (rowIdx t p) k := by
  obtain ⟨e00, e01, e10, e11, e80, e81, e20, e21, e30, e31, e40, e41, e50, e51, e60, e61, e70, e71⟩ := idx_facts t
  funext d; apply Fin.ext
  match d with
  | ⟨0, _⟩ => show win0_1.index t (0 : Fin 2) * 2000 + 1 * p.val = t.val * 2000 + p.val; omega
  | ⟨1, _⟩ => show win0_1.index t (1 : Fin 2) * 256 + 1 * k.val = k.val; omega
theorem emb_out (t : Fin cfg0.N) (p : Fin 2000) (q : Fin 256) : ((cfg0.win 8).blk t).view.emb (ix2 p q) = ix2 (rowIdx t p) q := by
  obtain ⟨e00, e01, e10, e11, e80, e81, e20, e21, e30, e31, e40, e41, e50, e51, e60, e61, e70, e71⟩ := idx_facts t
  funext d; apply Fin.ext
  match d with
  | ⟨0, _⟩ => show win0_8.index t (0 : Fin 2) * 2000 + 1 * p.val = t.val * 2000 + p.val; omega
  | ⟨1, _⟩ => show win0_8.index t (1 : Fin 2) * 256 + 1 * q.val = q.val; omega
theorem emb_wa (t : Fin cfg0.N) (k : Fin 256) (j : Fin 256) : ((cfg0.win 2).blk t).view.emb (ix2 k j) = ix2 k j := by
  obtain ⟨e00, e01, e10, e11, e80, e81, e20, e21, e30, e31, e40, e41, e50, e51, e60, e61, e70, e71⟩ := idx_facts t
  funext d; apply Fin.ext
  match d with
  | ⟨0, _⟩ => show win0_2.index t (0 : Fin 2) * 256 + 1 * k.val = k.val; omega
  | ⟨1, _⟩ => show win0_2.index t (1 : Fin 2) * 256 + 1 * j.val = j.val; omega
theorem emb_wb (t : Fin cfg0.N) (k : Fin 256) (j : Fin 256) : ((cfg0.win 4).blk t).view.emb (ix2 k j) = ix2 k j := by
  obtain ⟨e00, e01, e10, e11, e80, e81, e20, e21, e30, e31, e40, e41, e50, e51, e60, e61, e70, e71⟩ := idx_facts t
  funext d; apply Fin.ext
  match d with
  | ⟨0, _⟩ => show win0_4.index t (0 : Fin 2) * 256 + 1 * k.val = k.val; omega
  | ⟨1, _⟩ => show win0_4.index t (1 : Fin 2) * 256 + 1 * j.val = j.val; omega
theorem emb_ba (t : Fin cfg0.N) (j : Fin 256) : ((cfg0.win 3).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win0_3.index t (0 : Fin 2) * 1 + 1 * (0 : Fin 1).val = (0 : Fin 1).val; omega
  | ⟨1, _⟩ => show win0_3.index t (1 : Fin 2) * 256 + 1 * j.val = j.val; omega
theorem emb_bb (t : Fin cfg0.N) (j : Fin 256) : ((cfg0.win 5).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win0_5.index t (0 : Fin 2) * 1 + 1 * (0 : Fin 1).val = (0 : Fin 1).val; omega
  | ⟨1, _⟩ => show win0_5.index t (1 : Fin 2) * 256 + 1 * j.val = j.val; omega
theorem emb_g (t : Fin cfg0.N) (j : Fin 256) : ((cfg0.win 6).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win0_6.index t (0 : Fin 2) * 1 + 1 * (0 : Fin 1).val = (0 : Fin 1).val; omega
  | ⟨1, _⟩ => show win0_6.index t (1 : Fin 2) * 256 + 1 * j.val = j.val; omega
theorem emb_β (t : Fin cfg0.N) (j : Fin 256) : ((cfg0.win 7).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win0_7.index t (0 : Fin 2) * 1 + 1 * (0 : Fin 1).val = (0 : Fin 1).val; omega
  | ⟨1, _⟩ => show win0_7.index t (1 : Fin 2) * 256 + 1 * j.val = j.val; omega

/-! ## Each window's block, read where it sits -/

theorem read_x (c : Dev nD) (t : Fin cfg0.N) (p : Fin 2000) :
    rowOf (iblk0 V c 0 t) p = fun k => xArr V c (ix2 (rowIdx t p) k) :=
  funext fun k => congrArg (xArr V c) (emb_x t p k)
theorem read_a (c : Dev nD) (t : Fin cfg0.N) (p : Fin 2000) :
    rowOf (iblk0 V c 1 t) p = fun k => aArr V c (ix2 (rowIdx t p) k) :=
  funext fun k => congrArg (aArr V c) (emb_a t p k)
theorem read_wa (c : Dev nD) (t : Fin cfg0.N) : matOf (iblk0 V c 2 t) = matOf (waArr V c) :=
  funext fun k => funext fun j => congrArg (waArr V c) (emb_wa t k j)
theorem read_wb (c : Dev nD) (t : Fin cfg0.N) : matOf (iblk0 V c 4 t) = matOf (wbArr V c) :=
  funext fun k => funext fun j => congrArg (wbArr V c) (emb_wb t k j)
theorem read_ba (c : Dev nD) (t : Fin cfg0.N) : vecOf (iblk0 V c 3 t) = vecOf (baArr V c) :=
  funext fun j => congrArg (baArr V c) (emb_ba t j)
theorem read_bb (c : Dev nD) (t : Fin cfg0.N) : vecOf (iblk0 V c 5 t) = vecOf (bbArr V c) :=
  funext fun j => congrArg (bbArr V c) (emb_bb t j)
theorem read_g (c : Dev nD) (t : Fin cfg0.N) : vecOf (iblk0 V c 6 t) = vecOf (gArr V c) :=
  funext fun j => congrArg (gArr V c) (emb_g t j)
theorem read_β (c : Dev nD) (t : Fin cfg0.N) : vecOf (iblk0 V c 7 t) = vecOf (βArr V c) :=
  funext fun j => congrArg (βArr V c) (emb_β t j)

/-! ## What a point writes back, and the cover -/

/-- WHAT POINT t WRITES BACK is block t of the node update of the arrays as the region finds them. -/
theorem flushed_eq (c : Dev nD) (t : Fin cfg0.N) :
    (dat0 V c).flushed 8 t = ((cfg0.win 8).blk t).view.read (Elt Ideal) (result V c) := by
  show (cfg0.win 8).cut (grid0.coords t) ((dat0 V c).after 8 t) = _
  rw [after0_8]
  unfold out0_8
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (k0_pay2 (iblk0 V c 0 t) (iblk0 V c 1 t) (iblk0 V c 2 t) (iblk0 V c 4 t) (iblk0 V c 3 t) (iblk0 V c 5 t)) (k0_pay3 (iblk0 V c 0 t) (iblk0 V c 1 t) (iblk0 V c 2 t) (iblk0 V c 4 t) (iblk0 V c 3 t) (iblk0 V c 5 t))
      (k0_pay4 (iblk0 V c 0 t) (iblk0 V c 1 t) (iblk0 V c 2 t) (iblk0 V c 4 t) (iblk0 V c 3 t) (iblk0 V c 5 t)) (iblk0 V c 6 t) (iblk0 V c 7 t) (ix2 p q)
    = result V c (((cfg0.win 8).blk t).view.emb (ix2 p q))
  refine (stored0_apply (iblk0 V c 0 t) (iblk0 V c 1 t) (iblk0 V c 2 t) (iblk0 V c 4 t) (iblk0 V c 3 t) (iblk0 V c 5 t) (iblk0 V c 6 t) (iblk0 V c 7 t) p q).trans ?_
  rw [emb_out t p q, read_x V c t p, read_a V c t p, read_wa V c t, read_wb V c t, read_ba V c t, read_bb V c t, read_g V c t, read_β V c t]
  rfl

/-- An index of the array is in point t's block iff each coordinate is in the block's range on its axis. -/
theorem mem_blk (t : Fin cfg0.N) (i : S50000x256.Idx) :
    i ∈ ((cfg0.win 8).blk t).view.set ↔ ∀ d : Fin 2, win0_8.index t d * S2000x256.size d ≤ (i d).val ∧ (i d).val < win0_8.index t d * S2000x256.size d + S2000x256.size d := by
  show i ∈ ((View.whole main_v24).slice (win0_8.rect t)).set ↔ _
  rw [View.set_slice_whole, Rect.mem_set_unit]
  exact Iff.rfl

/-- Every row lies in some point's block: row r in the block of point r / 2000. -/
theorem cover (i : S50000x256.Idx) : ∃ t : Fin cfg0.N, (cfg0.win 8).flush t = true ∧ i ∈ ((cfg0.win 8).blk t).view.set := by
  have hi0 : (i 0).val < 50000 := (i 0).isLt
  have hi1 : (i 1).val < 256 := (i 1).isLt
  refine ⟨⟨(i 0).val / 2000, lt_of_lt_of_eq (by omega : (i 0).val / 2000 < 25) N_0.symm⟩, flush0_8 _, ?_⟩
  rw [mem_blk]
  obtain ⟨e00, e01, e10, e11, e80, e81, e20, e21, e30, e31, e40, e41, e50, e51, e60, e61, e70, e71⟩ := idx_facts ⟨(i 0).val / 2000, lt_of_lt_of_eq (by omega : (i 0).val / 2000 < 25) N_0.symm⟩
  intro d
  match d with
  | ⟨0, _⟩ => show win0_8.index _ (0 : Fin 2) * 2000 ≤ (i 0).val ∧ (i 0).val < win0_8.index _ (0 : Fin 2) * 2000 + 2000; rw [e80]; show (i 0).val / 2000 * 2000 ≤ (i 0).val ∧ (i 0).val < (i 0).val / 2000 * 2000 + 2000; omega
  | ⟨1, _⟩ => show win0_8.index _ (1 : Fin 2) * 256 ≤ (i 1).val ∧ (i 1).val < win0_8.index _ (1 : Fin 2) * 256 + 256; rw [e81]; omega

/-- THE OUTPUT ARRAY after the grid: the node update of every row of the arrays the region found. -/
theorem final (c : Dev nD) : (dat0 V c).arrAt 8 cfg0.N = result V c :=
  (dat0 V c).arrAt_eq_of_cover 8 (result V c) (fun t _ => flushed_eq V c t) cover

end Cert.KernelIdeal.Arr0

end
-- ==== Proof.KernelArr1.lean ====
/-
  The second node update's output array after its grid has run.

  The grid has 25 points; point t fetches rows 2000·t … 2000·t + 1999 of the features and of the aggregated
  messages, the whole weight matrices and the four 1 × 256 rows, and writes back rows 2000·t … of the
  output. What point t writes back is therefore block t of ONE function of the arrays as the region finds
  them — the node update of every row — and the 25 blocks tile the 50000 rows, so the array ends holding
  that function.
-/
import proofs.«413193_j59365037965999_3_alg».proof.Proof.Gen.KernelIdeal.Frame
import proofs.«413193_j59365037965999_3_alg».proof.Proof.KernelRow
import proofs.«413193_j59365037965999_3_alg».proof.Proof.NodeUpdateArray

set_option maxRecDepth 16384

noncomputable section

namespace Cert.KernelIdeal.Arr1

open Idealize.ShloMosaic Idealize.ShloMosaic.TcCoe Idealize.ShloMosaic.ValueIdx
open Idealize.ShloMosaic.Pipeline (Dat Cfg Window)
open Cert.KernelIdeal Cert.KernelIdeal.Gen Cert.KernelIdeal.Row Cert.NodeUpdate

variable (V : (c : Dev nD) → (b : Ref sig .tc) → Buf (Elt Ideal) ((c : Thread nD τ).loc b))

theorem hz : (![0, 0] : Fin 2 → Nat) = fun _ => 0 := funext fun a => by fin_cases a <;> rfl

/-! ## The arrays the region reads, each by its literal type -/

abbrev xArr (c : Dev nD) : Vec Ideal S50000x256 .f32 := V c main_arg0
abbrev aArr (c : Dev nD) : Vec Ideal S50000x256 .f32 := V c main_v44
abbrev waArr (c : Dev nD) : Vec Ideal S256x256 .f32 := V c main_arg13
abbrev baArr (c : Dev nD) : Vec Ideal S1x256 .f32 := V c main_v45
abbrev wbArr (c : Dev nD) : Vec Ideal S256x256 .f32 := V c main_arg15
abbrev bbArr (c : Dev nD) : Vec Ideal S1x256 .f32 := V c main_v46
abbrev gArr (c : Dev nD) : Vec Ideal S1x256 .f32 := V c main_v47
abbrev βArr (c : Dev nD) : Vec Ideal S1x256 .f32 := V c main_v48

/-- The array the region's output ends holding: the node update of every row. -/
abbrev result (c : Dev nD) : Vec Ideal S50000x256 .f32 :=
  update (xArr V c) (aArr V c) (matOf (waArr V c)) (vecOf (baArr V c)) (matOf (wbArr V c)) (vecOf (bbArr V c))
    (vecOf (gArr V c)) (vecOf (βArr V c))

/-! ## Where each window's block sits -/

/-- The printed index maps over the grid: the three row-blocked windows sit at block row t, the six whole
    windows at the origin. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_8.index t (0 : Fin 2) = t.val
    ∧ win1_8.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- Row p of point t's block is row 2000·t + p of the array. -/
def rowIdx (t : Fin cfg1.N) (p : Fin 2000) : Fin 50000 :=
  ⟨t.val * 2000 + p.val, by have ht : t.val < 25 := lt_of_lt_of_eq t.isLt N_1; have := p.isLt; omega⟩

theorem emb_x (t : Fin cfg1.N) (p : Fin 2000) (k : Fin 256) : ((cfg1.win 0).blk t).view.emb (ix2 p k) = ix2 (rowIdx t p) k := by
  obtain ⟨e00, e01, e10, e11, e80, e81, e20, e21, e30, e31, e40, e41, e50, e51, e60, e61, e70, e71⟩ := idx_facts t
  funext d; apply Fin.ext
  match d with
  | ⟨0, _⟩ => show win1_0.index t (0 : Fin 2) * 2000 + 1 * p.val = t.val * 2000 + p.val; omega
  | ⟨1, _⟩ => show win1_0.index t (1 : Fin 2) * 256 + 1 * k.val = k.val; omega
theorem emb_a (t : Fin cfg1.N) (p : Fin 2000) (k : Fin 256) : ((cfg1.win 1).blk t).view.emb (ix2 p k) = ix2 (rowIdx t p) k := by
  obtain ⟨e00, e01, e10, e11, e80, e81, e20, e21, e30, e31, e40, e41, e50, e51, e60, e61, e70, e71⟩ := idx_facts t
  funext d; apply Fin.ext
  match d with
  | ⟨0, _⟩ => show win1_1.index t (0 : Fin 2) * 2000 + 1 * p.val = t.val * 2000 + p.val; omega
  | ⟨1, _⟩ => show win1_1.index t (1 : Fin 2) * 256 + 1 * k.val = k.val; omega
theorem emb_out (t : Fin cfg1.N) (p : Fin 2000) (q : Fin 256) : ((cfg1.win 8).blk t).view.emb (ix2 p q) = ix2 (rowIdx t p) q := by
  obtain ⟨e00, e01, e10, e11, e80, e81, e20, e21, e30, e31, e40, e41, e50, e51, e60, e61, e70, e71⟩ := idx_facts t
  funext d; apply Fin.ext
  match d with
  | ⟨0, _⟩ => show win1_8.index t (0 : Fin 2) * 2000 + 1 * p.val = t.val * 2000 + p.val; omega
  | ⟨1, _⟩ => show win1_8.index t (1 : Fin 2) * 256 + 1 * q.val = q.val; omega
theorem emb_wa (t : Fin cfg1.N) (k : Fin 256) (j : Fin 256) : ((cfg1.win 2).blk t).view.emb (ix2 k j) = ix2 k j := by
  obtain ⟨e00, e01, e10, e11, e80, e81, e20, e21, e30, e31, e40, e41, e50, e51, e60, e61, e70, e71⟩ := idx_facts t
  funext d; apply Fin.ext
  match d with
  | ⟨0, _⟩ => show win1_2.index t (0 : Fin 2) * 256 + 1 * k.val = k.val; omega
  | ⟨1, _⟩ => show win1_2.index t (1 : Fin 2) * 256 + 1 * j.val = j.val; omega
theorem emb_wb (t : Fin cfg1.N) (k : Fin 256) (j : Fin 256) : ((cfg1.win 4).blk t).view.emb (ix2 k j) = ix2 k j := by
  obtain ⟨e00, e01, e10, e11, e80, e81, e20, e21, e30, e31, e40, e41, e50, e51, e60, e61, e70, e71⟩ := idx_facts t
  funext d; apply Fin.ext
  match d with
  | ⟨0, _⟩ => show win1_4.index t (0 : Fin 2) * 256 + 1 * k.val = k.val; omega
  | ⟨1, _⟩ => show win1_4.index t (1 : Fin 2) * 256 + 1 * j.val = j.val; omega
theorem emb_ba (t : Fin cfg1.N) (j : Fin 256) : ((cfg1.win 3).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win1_3.index t (0 : Fin 2) * 1 + 1 * (0 : Fin 1).val = (0 : Fin 1).val; omega
  | ⟨1, _⟩ => show win1_3.index t (1 : Fin 2) * 256 + 1 * j.val = j.val; omega
theorem emb_bb (t : Fin cfg1.N) (j : Fin 256) : ((cfg1.win 5).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win1_5.index t (0 : Fin 2) * 1 + 1 * (0 : Fin 1).val = (0 : Fin 1).val; omega
  | ⟨1, _⟩ => show win1_5.index t (1 : Fin 2) * 256 + 1 * j.val = j.val; omega
theorem emb_g (t : Fin cfg1.N) (j : Fin 256) : ((cfg1.win 6).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win1_6.index t (0 : Fin 2) * 1 + 1 * (0 : Fin 1).val = (0 : Fin 1).val; omega
  | ⟨1, _⟩ => show win1_6.index t (1 : Fin 2) * 256 + 1 * j.val = j.val; omega
theorem emb_β (t : Fin cfg1.N) (j : Fin 256) : ((cfg1.win 7).blk t).view.emb (ix2 (0 : Fin 1) j) = ix2 (0 : Fin 1) j := by
  obtain ⟨e00, e01, e10, e11, e80, e81, e20, e21, e30, e31, e40, e41, e50, e51, e60, e61, e70, e71⟩ := idx_facts t
  funext d; apply Fin.ext
  match d with
  | ⟨0, _⟩ => show win1_7.index t (0 : Fin 2) * 1 + 1 * (0 : Fin 1).val = (0 : Fin 1).val; omega
  | ⟨1, _⟩ => show win1_7.index t (1 : Fin 2) * 256 + 1 * j.val = j.val; omega

/-! ## Each window's block, read where it sits -/

theorem read_x (c : Dev nD) (t : Fin cfg1.N) (p : Fin 2000) :
    rowOf (iblk1 V c 0 t) p = fun k => xArr V c (ix2 (rowIdx t p) k) :=
  funext fun k => congrArg (xArr V c) (emb_x t p k)
theorem read_a (c : Dev nD) (t : Fin cfg1.N) (p : Fin 2000) :
    rowOf (iblk1 V c 1 t) p = fun k => aArr V c (ix2 (rowIdx t p) k) :=
  funext fun k => congrArg (aArr V c) (emb_a t p k)
theorem read_wa (c : Dev nD) (t : Fin cfg1.N) : matOf (iblk1 V c 2 t) = matOf (waArr V c) :=
  funext fun k => funext fun j => congrArg (waArr V c) (emb_wa t k j)
theorem read_wb (c : Dev nD) (t : Fin cfg1.N) : matOf (iblk1 V c 4 t) = matOf (wbArr V c) :=
  funext fun k => funext fun j => congrArg (wbArr V c) (emb_wb t k j)
theorem read_ba (c : Dev nD) (t : Fin cfg1.N) : vecOf (iblk1 V c 3 t) = vecOf (baArr V c) :=
  funext fun j => congrArg (baArr V c) (emb_ba t j)
theorem read_bb (c : Dev nD) (t : Fin cfg1.N) : vecOf (iblk1 V c 5 t) = vecOf (bbArr V c) :=
  funext fun j => congrArg (bbArr V c) (emb_bb t j)
theorem read_g (c : Dev nD) (t : Fin cfg1.N) : vecOf (iblk1 V c 6 t) = vecOf (gArr V c) :=
  funext fun j => congrArg (gArr V c) (emb_g t j)
theorem read_β (c : Dev nD) (t : Fin cfg1.N) : vecOf (iblk1 V c 7 t) = vecOf (βArr V c) :=
  funext fun j => congrArg (βArr V c) (emb_β t j)

/-! ## What a point writes back, and the cover -/

/-- WHAT POINT t WRITES BACK is block t of the node update of the arrays as the region finds them. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  unfold out1_8
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (F := Ideal) (k1_pay2 (iblk1 V c 0 t) (iblk1 V c 1 t) (iblk1 V c 2 t) (iblk1 V c 4 t) (iblk1 V c 3 t) (iblk1 V c 5 t)) (k1_pay3 (iblk1 V c 0 t) (iblk1 V c 1 t) (iblk1 V c 2 t) (iblk1 V c 4 t) (iblk1 V c 3 t) (iblk1 V c 5 t))
      (k1_pay4 (iblk1 V c 0 t) (iblk1 V c 1 t) (iblk1 V c 2 t) (iblk1 V c 4 t) (iblk1 V c 3 t) (iblk1 V c 5 t)) (iblk1 V c 6 t) (iblk1 V c 7 t) (ix2 p q)
    = result V c (((cfg1.win 8).blk t).view.emb (ix2 p q))
  refine (stored1_apply (iblk1 V c 0 t) (iblk1 V c 1 t) (iblk1 V c 2 t) (iblk1 V c 4 t) (iblk1 V c 3 t) (iblk1 V c 5 t) (iblk1 V c 6 t) (iblk1 V c 7 t) p q).trans ?_
  rw [emb_out t p q, read_x V c t p, read_a V c t p, read_wa V c t, read_wb V c t, read_ba V c t, read_bb V c t, read_g V c t, read_β V c t]
  rfl

/-- An index of the array is in point t's block iff each coordinate is in the block's range on its axis. -/
theorem mem_blk (t : Fin cfg1.N) (i : S50000x256.Idx) :
    i ∈ ((cfg1.win 8).blk t).view.set ↔ ∀ d : Fin 2, win1_8.index t d * S2000x256.size d ≤ (i d).val ∧ (i d).val < win1_8.index t d * S2000x256.size d + S2000x256.size d := by
  show i ∈ ((View.whole main_v49).slice (win1_8.rect t)).set ↔ _
  rw [View.set_slice_whole, Rect.mem_set_unit]
  exact Iff.rfl

/-- Every row lies in some point's block: row r in the block of point r / 2000. -/
theorem cover (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  refine ⟨⟨(i 0).val / 2000, lt_of_lt_of_eq (by omega : (i 0).val / 2000 < 25) N_1.symm⟩, flush1_8 _, ?_⟩
  rw [mem_blk]
  obtain ⟨e00, e01, e10, e11, e80, e81, e20, e21, e30, e31, e40, e41, e50, e51, e60, e61, e70, e71⟩ := idx_facts ⟨(i 0).val / 2000, lt_of_lt_of_eq (by omega : (i 0).val / 2000 < 25) N_1.symm⟩
  intro d
  match d with
  | ⟨0, _⟩ => show win1_8.index _ (0 : Fin 2) * 2000 ≤ (i 0).val ∧ (i 0).val < win1_8.index _ (0 : Fin 2) * 2000 + 2000; rw [e80]; show (i 0).val / 2000 * 2000 ≤ (i 0).val ∧ (i 0).val < (i 0).val / 2000 * 2000 + 2000; omega
  | ⟨1, _⟩ => show win1_8.index _ (1 : Fin 2) * 256 ≤ (i 1).val ∧ (i 1).val < win1_8.index _ (1 : Fin 2) * 256 + 256; rw [e81]; omega

/-- THE OUTPUT ARRAY after the grid: the node update of every row of the arrays the region found. -/
theorem final (c : Dev nD) : (dat1 V c).arrAt 8 cfg1.N = result V c :=
  (dat1 V c).arrAt_eq_of_cover 8 (result V c) (fun t _ => flushed_eq V c t) cover

end Cert.KernelIdeal.Arr1

end
-- ==== Proof.KernelWhole.lean ====
/-
  The kernel program's two results as functions of the argument arrays.

  The first result is the node update of every row of `x_constr` with the messages aggregated from `x_var`
  along the first edge set; the second is the node update of every row of `x_var` with the messages
  aggregated from the FIRST RESULT along the second edge set. Each is read off the run: the result buffer at
  the last segment boundary is its region's output array, that array is the update of the arrays the region
  found at its entry, and those are the launch arrays, their aggregation, and the bias and scale rows recast
  to 1 × 256.
-/
import proofs.«413193_j59365037965999_3_alg».proof.Proof.KernelRun
import proofs.«413193_j59365037965999_3_alg».proof.Proof.KernelBounds
import proofs.«413193_j59365037965999_3_alg».proof.Proof.KernelArr0
import proofs.«413193_j59365037965999_3_alg».proof.Proof.KernelArr1

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Row Cert.KernelIdeal.Bounds Cert.NodeUpdate

variable (m : (ℓ : Loc nD τ sig) → Buf (Elt Ideal) ℓ) (ρ : Dev nD → PrngReg)

/-- The first result: every row of `x_constr` updated with the messages from `x_var`. -/
def first (c : Dev nD) : Vec Ideal S50000x256 .f32 :=
  update (m ((c : Thread nD τ).loc main_arg1)) (aggK (F := Ideal) (m ((c : Thread nD τ).loc main_arg0)) (m ((c : Thread nD τ).loc main_arg2)) (m ((c : Thread nD τ).loc main_arg4)) (m ((c : Thread nD τ).loc main_arg5)) (m ((c : Thread nD τ).loc main_arg6)))
    (matOf (m ((c : Thread nD τ).loc main_arg7))) (vecOf (shapeCast S1x256 (m ((c : Thread nD τ).loc main_arg8)) shapeCasts_S256_S1x256)) (matOf (m ((c : Thread nD τ).loc main_arg9))) (vecOf (shapeCast S1x256 (m ((c : Thread nD τ).loc main_arg10)) shapeCasts_S256_S1x256)) (vecOf (shapeCast S1x256 (m ((c : Thread nD τ).loc main_arg17)) shapeCasts_S256_S1x256)) (vecOf (shapeCast S1x256 (m ((c : Thread nD τ).loc main_arg18)) shapeCasts_S256_S1x256))

/-- The second result: every row of `x_var` updated with the messages from the first result. -/
def second (c : Dev nD) : Vec Ideal S50000x256 .f32 :=
  update (m ((c : Thread nD τ).loc main_arg0)) (aggK (F := Ideal) (first m c) (m ((c : Thread nD τ).loc main_arg3)) (m ((c : Thread nD τ).loc main_arg4)) (m ((c : Thread nD τ).loc main_arg11)) (m ((c : Thread nD τ).loc main_arg12)))
    (matOf (m ((c : Thread nD τ).loc main_arg13))) (vecOf (shapeCast S1x256 (m ((c : Thread nD τ).loc main_arg14)) shapeCasts_S256_S1x256)) (matOf (m ((c : Thread nD τ).loc main_arg15))) (vecOf (shapeCast S1x256 (m ((c : Thread nD τ).loc main_arg16)) shapeCasts_S256_S1x256)) (vecOf (shapeCast S1x256 (m ((c : Thread nD τ).loc main_arg19)) shapeCasts_S256_S1x256)) (vecOf (shapeCast S1x256 (m ((c : Thread nD τ).loc main_arg20)) shapeCasts_S256_S1x256))

/-- The first region's output array ends at the first result. -/
theorem first_eq (c : Dev nD) : (dat0 (V3 m ρ) c).arrAt 8 cfg0.N = first m c := by
  rw [Arr0.final (V3 m ρ) c]
  show update (V3 m ρ c main_arg1) (V3 m ρ c main_v19) (matOf (V3 m ρ c main_arg7)) (vecOf (V3 m ρ c main_v20))
    (matOf (V3 m ρ c main_arg9)) (vecOf (V3 m ρ c main_v21)) (vecOf (V3 m ρ c main_v22)) (vecOf (V3 m ρ c main_v23)) = _
  rw [V3_arg1 m ρ c, V3_v19 m ρ c, V3_arg7 m ρ c, V3_v20 m ρ c, V3_arg9 m ρ c, V3_v21 m ρ c, V3_v22 m ρ c, V3_v23 m ρ c]
  rfl

/-- The second region's output array ends at the second result. -/
theorem second_eq (c : Dev nD) : (dat1 (V7 m ρ) c).arrAt 8 cfg1.N = second m c := by
  rw [Arr1.final (V7 m ρ) c]
  show update (V7 m ρ c main_arg0) (V7 m ρ c main_v44) (matOf (V7 m ρ c main_arg13)) (vecOf (V7 m ρ c main_v45))
    (matOf (V7 m ρ c main_arg15)) (vecOf (V7 m ρ c main_v46)) (vecOf (V7 m ρ c main_v47)) (vecOf (V7 m ρ c main_v48)) = _
  rw [V7_arg0 m ρ c, V7_v44 m ρ c, first_eq m ρ c, V7_arg13 m ρ c, V7_v45 m ρ c, V7_arg15 m ρ c, V7_v46 m ρ c, V7_v47 m ρ c, V7_v48 m ρ c]
  rfl

/-- THE RUN, READ: every weakly fair execution terminates with the two results at these functions of the
    arguments and the arguments unchanged. -/
theorem run : θ_run defs (onTc (τ := τ) (main (F := Ideal))) ⟨m, fun _ => 0, ρ⟩ (fun r => ∀ c : Dev nD,
      r.2.mem ((c.tc : Thread nD τ).loc main_v49) = second m c
      ∧ r.2.mem ((c.tc : Thread nD τ).loc main_v24) = first m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans ((W8_v49 m ρ c).trans (second_eq m ρ c)),
      (h c).2.1.trans ((W8_v24 m ρ c).trans (first_eq m ρ c)), (h c).2.2⟩)
    (Cert.KernelIdeal.Results.run_results m ρ)

end Cert.KernelIdeal.Whole

end
-- ==== Proof.RefRow.lean ====
/-
  The reference's first result, entry by entry, and its second result as the first one's function again.

  The reference computes the first update over whole arrays: `x_constr + agg`, two host matrix products with
  bias and rectifier between them, the residual, and the layer norm (two row sums divided by 256, `rsqrt`).
  Read at entry (r, q), every one of these stages depends on row r only, and the chain is the node update of
  that row (`Cert.NodeUpdate.row`). The second update is the same chain of stages applied to the other
  node set, its aggregation gathering from the first update's result.
-/
import proofs.«413193_j59365037965999_3_alg».proof.Proof.Gen.ReferenceIdeal.Read
import proofs.«413193_j59365037965999_3_alg».proof.Proof.NodeUpdate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefRow

open Idealize.ShloMosaic Idealize.ShloMosaic.ValueIdx
open Cert.ReferenceIdeal Cert.ReferenceIdeal.Read Cert.NodeUpdate

/-! ## Where each stage reads its operands, at an entry given by its coordinates

Every stage of the chain reads row r only: a matrix product reads row r of its left operand and column q of its
right one, a row sum reads the whole of row r, a bias, gain or offset row is read at column q, and a per-row
statistic (kept as a column of width one) at (r, 0). -/

section Idx
variable (r : Fin 50000) (q k : Fin 256)

theorem lidx21 : lidx_main_v21 (ix2 r q) k = ix2 r k :=
  funext fun a => Fin.ext (by match a with | ⟨0, _⟩ => rfl | ⟨1, _⟩ => rfl)
theorem ridx21 : ridx_main_v21 (ix2 r q) k = ix2 k q :=
  funext fun a => Fin.ext (by match a with | ⟨0, _⟩ => rfl | ⟨1, _⟩ => rfl)
theorem lidx26 : lidx_main_v26 (ix2 r q) k = ix2 r k :=
  funext fun a => Fin.ext (by match a with | ⟨0, _⟩ => rfl | ⟨1, _⟩ => rfl)
theorem ridx26 : ridx_main_v26 (ix2 r q) k = ix2 k q :=
  funext fun a => Fin.ext (by match a with | ⟨0, _⟩ => rfl | ⟨1, _⟩ => rfl)
theorem idx31 : idx_main_v31 (ix1 r) k = ix2 r k :=
  funext fun a => Fin.ext (by match a with | ⟨0, _⟩ => rfl | ⟨1, _⟩ => rfl)
theorem idx38 : idx_main_v38 (ix1 r) k = ix2 r k :=
  funext fun a => Fin.ext (by match a with | ⟨0, _⟩ => rfl | ⟨1, _⟩ => rfl)
theorem idx32 : idx_main_v32 (ix2 r (0 : Fin 1)) = ix1 r :=
  funext fun a => Fin.ext (by match a with | ⟨0, _⟩ => rfl)
theorem idx39 : idx_main_v39 (ix2 r (0 : Fin 1)) = ix1 r :=
  funext fun a => Fin.ext (by match a with | ⟨0, _⟩ => rfl)
theorem idx35 : idx_main_v35 (ix2 r q) = ix2 r (0 : Fin 1) :=
  funext fun a => Fin.ext (by match a with | ⟨0, _⟩ => rfl | ⟨1, _⟩ => rfl)
theorem idx42 : idx_main_v42 (ix2 r q) = ix2 r (0 : Fin 1) :=
  funext fun a => Fin.ext (by match a with | ⟨0, _⟩ => rfl | ⟨1, _⟩ => rfl)
theorem idx47 : idx_main_v47 (ix2 r q) = ix2 r (0 : Fin 1) :=
  funext fun a => Fin.ext (by match a with | ⟨0, _⟩ => rfl | ⟨1, _⟩ => rfl)

end Idx

/-! ## The four rows broadcast over the node set: each reads its row at the column -/

section Rows
variable (y : (⟨S256, .f32⟩ : BufTy).Contents (Elt Ideal)) (r : Fin 50000) (q : Fin 256)

theorem v23_at : val_main_v23 (F := Ideal) y (ix2 r q) = y (ix1 q) := by
  rw [val_main_v23_apply, val_main_v22_apply]
  exact congrArg y (funext fun a => Fin.ext (by match a with | ⟨0, _⟩ => rfl))
theorem v28_at : val_main_v28 (F := Ideal) y (ix2 r q) = y (ix1 q) := by
  rw [val_main_v28_apply, val_main_v27_apply]
  exact congrArg y (funext fun a => Fin.ext (by match a with | ⟨0, _⟩ => rfl))
theorem v50_at : val_main_v50 (F := Ideal) y (ix2 r q) = y (ix1 q) := by
  rw [val_main_v50_apply, val_main_v49_apply]
  exact congrArg y (funext fun a => Fin.ext (by match a with | ⟨0, _⟩ => rfl))
theorem v53_at : val_main_v53 (F := Ideal) y (ix2 r q) = y (ix1 q) := by
  rw [val_main_v53_apply, val_main_v52_apply]
  exact congrArg y (funext fun a => Fin.ext (by match a with | ⟨0, _⟩ => rfl))

end Rows

/-- The mean of a row is its sum over the word 256.0 (the definition, as an equation to rewrite with). -/
theorem mean_eq (v : Fin 256 → EReal) : mean v = Ideal.div (∑ j : Fin 256, v j) widthLit := rfl

/-! ## The chain, one named quantity at a time -/

section Chain
variable (x0 x1 : (⟨S50000x256, .f32⟩ : BufTy).Contents (Elt Ideal)) (x2 : (⟨S2x300000, .i32⟩ : BufTy).Contents (Elt Ideal)) (x4 : (⟨S300000x1, .f32⟩ : BufTy).Contents (Elt Ideal))
  (x5 : (⟨S1x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
  (x9 : (⟨S256x256, .f32⟩ : BufTy).Contents (Elt Ideal)) (x10 x17 x18 : (⟨S256, .f32⟩ : BufTy).Contents (Elt Ideal)) (r : Fin 50000)

/-- THE HIDDEN LAYER at (r, j): the rectified first product of the row \`x1 r + agg r\`. -/
theorem hidden_at (j : Fin 256) :
    val_main_v25 (F := Ideal) x0 x1 x2 x4 x5 x6 x7 x8 (ix2 r j)
      = hidden (fun k => x1 (ix2 r k)) (fun k => val_main_v19 (F := Ideal) x0 x2 x4 x5 x6 (ix2 r k))
          (fun k j => x7 (ix2 k j)) (fun j => x8 (ix1 j)) j := by
  rw [val_main_v25_apply, val_main_v24_apply, val_main_v21_apply, v23_at, val_main_call1_v0_apply,
    val_main_call1_cst_apply]
  simp only [Ideal.maximumf_def, Ideal.addf_def, Ideal.ofBits_def]
  unfold NodeUpdate.hidden
  refine congrArg (fun s => max (s + x8 (ix1 j)) zeroLit) (Finset.sum_congr rfl fun k _ => ?_)
  rw [lidx21, ridx21, val_main_v20_apply, Ideal.addf_def]

/-- THE ROW BEFORE NORMALISATION at (r, j): \`x1\` plus the second product of the hidden layer. -/
theorem resid_at (j : Fin 256) :
    val_main_v30 (F := Ideal) x0 x1 x2 x4 x5 x6 x7 x8 x9 x10 (ix2 r j)
      = resid (fun k => x1 (ix2 r k)) (fun k => val_main_v19 (F := Ideal) x0 x2 x4 x5 x6 (ix2 r k))
          (fun k j => x7 (ix2 k j)) (fun j => x8 (ix1 j)) (fun k j => x9 (ix2 k j)) (fun j => x10 (ix1 j)) j := by
  rw [val_main_v30_apply, val_main_v29_apply, val_main_v26_apply, v28_at]
  simp only [Ideal.addf_def]
  unfold resid
  refine congrArg (fun s => x1 (ix2 r j) + (s + x10 (ix1 j))) (Finset.sum_congr rfl fun k _ => ?_)
  rw [lidx26, ridx26, hidden_at]

/-- THE MEAN of row r: the row sum starts from the word 0.0, which is the real 0, and is divided by the word 256.0. -/
theorem mean_at :
    val_main_v34 (F := Ideal) x0 x1 x2 x4 x5 x6 x7 x8 x9 x10 (ix2 r (0 : Fin 1))
      = mean (resid (fun k => x1 (ix2 r k)) (fun k => val_main_v19 (F := Ideal) x0 x2 x4 x5 x6 (ix2 r k))
          (fun k j => x7 (ix2 k j)) (fun j => x8 (ix1 j)) (fun k j => x9 (ix2 k j)) (fun j => x10 (ix1 j))) := by
  rw [val_main_v34_apply, val_main_v32_apply, idx32, val_main_v31_apply, val_main_v33_apply, val_main_cst_1_apply,
    val_main_cst_2_apply]
  simp only [Ideal.hostDivf_def, Ideal.ofBits_def]
  rw [Ideal.ofBits_zero_f32, zero_add]
  refine (congrArg (fun s => Ideal.div s widthLit) (Finset.sum_congr rfl fun k _ => ?_)).trans (mean_eq _).symm
  rw [idx31, resid_at]

/-- THE SQUARED DEVIATION at (r, k). -/
theorem sqdev_at (k : Fin 256) :
    val_main_v37 (F := Ideal) x0 x1 x2 x4 x5 x6 x7 x8 x9 x10 (ix2 r k)
      = (fun v : Fin 256 → EReal => (v k - mean v) * (v k - mean v))
          (resid (fun k => x1 (ix2 r k)) (fun k => val_main_v19 (F := Ideal) x0 x2 x4 x5 x6 (ix2 r k))
            (fun k j => x7 (ix2 k j)) (fun j => x8 (ix1 j)) (fun k j => x9 (ix2 k j)) (fun j => x10 (ix1 j))) := by
  rw [val_main_v37_apply, val_main_v36_apply, val_main_v35_apply, idx35, mean_at, resid_at]
  simp only [Ideal.mulf_def, Ideal.subf_def]

/-- THE RECIPROCAL STANDARD DEVIATION of row r. -/
theorem invStd_at :
    val_main_v46 (F := Ideal) x0 x1 x2 x4 x5 x6 x7 x8 x9 x10 (ix2 r (0 : Fin 1))
      = invStd (resid (fun k => x1 (ix2 r k)) (fun k => val_main_v19 (F := Ideal) x0 x2 x4 x5 x6 (ix2 r k))
          (fun k j => x7 (ix2 k j)) (fun j => x8 (ix1 j)) (fun k j => x9 (ix2 k j)) (fun j => x10 (ix1 j))) := by
  rw [val_main_v46_apply, val_main_v45_apply, val_main_v41_apply, val_main_v39_apply, idx39, val_main_v38_apply,
    val_main_v40_apply, val_main_v44_apply, val_main_cst_3_apply, val_main_cst_4_apply, val_main_cst_5_apply]
  simp only [Ideal.hostUnary_rsqrt_def, Ideal.addf_def, Ideal.hostDivf_def, Ideal.ofBits_def]
  rw [Ideal.ofBits_zero_f32, zero_add]
  unfold invStd
  refine congrArg (fun s => Ideal.rsqrt (s + epsLit)) ?_
  refine (congrArg (fun s => Ideal.div s widthLit) (Finset.sum_congr rfl fun k _ => ?_)).trans (mean_eq _).symm
  rw [idx38, sqdev_at]

end Chain

/-- THE FIRST RESULT at (r, q) is the node update of row r of `x1` and of the aggregation, at q. -/
theorem v54_apply (x0 x1 : (⟨S50000x256, .f32⟩ : BufTy).Contents (Elt Ideal)) (x2 : (⟨S2x300000, .i32⟩ : BufTy).Contents (Elt Ideal)) (x4 : (⟨S300000x1, .f32⟩ : BufTy).Contents (Elt Ideal))
    (x5 : (⟨S1x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (x9 : (⟨S256x256, .f32⟩ : BufTy).Contents (Elt Ideal)) (x10 x17 x18 : (⟨S256, .f32⟩ : BufTy).Contents (Elt Ideal)) (r : Fin 50000) (q : Fin 256) :
    val_main_v54 (F := Ideal) x0 x1 x2 x4 x5 x6 x7 x8 x9 x10 x17 x18 (ix2 r q)
      = row (fun k => x1 (ix2 r k)) (fun k => val_main_v19 (F := Ideal) x0 x2 x4 x5 x6 (ix2 r k))
          (fun k j => x7 (ix2 k j)) (fun j => x8 (ix1 j)) (fun k j => x9 (ix2 k j)) (fun j => x10 (ix1 j))
          (fun j => x17 (ix1 j)) (fun j => x18 (ix1 j)) q := by
  rw [val_main_v54_apply, val_main_v51_apply, val_main_v48_apply, val_main_v43_apply, val_main_v42_apply, idx42,
    val_main_v47_apply, idx47, v50_at, v53_at, mean_at, invStd_at, resid_at]
  simp only [Ideal.addf_def, Ideal.mulf_def, Ideal.subf_def]
  rfl

/-- THE SECOND RESULT is the first result's function at the other node set: sources the first result, the
    second index pair, the second edge map and the second perceptron and norm. -/
theorem v109_eq (x0 x1 : (⟨S50000x256, .f32⟩ : BufTy).Contents (Elt Ideal)) (x2 x3 : (⟨S2x300000, .i32⟩ : BufTy).Contents (Elt Ideal)) (x4 : (⟨S300000x1, .f32⟩ : BufTy).Contents (Elt Ideal))
    (x5 : (⟨S1x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) (x11 : (⟨S1x256, .f32⟩ : BufTy).Contents (Elt Ideal)) (x12 : (⟨S256, .f32⟩ : BufTy).Contents (Elt Ideal))
    (x13 : (⟨S256x256, .f32⟩ : BufTy).Contents (Elt Ideal)) (x14 : (⟨S256, .f32⟩ : BufTy).Contents (Elt Ideal)) (x15 : (⟨S256x256, .f32⟩ : BufTy).Contents (Elt Ideal)) (x16 x17 x18 x19 x20 : (⟨S256, .f32⟩ : BufTy).Contents (Elt Ideal)) :
    val_main_v109 (F := Ideal) x0 x1 x2 x3 x4 x5 x6 x7 x8 x9 x10 x11 x12 x13 x14 x15 x16 x17 x18 x19 x20
      = val_main_v54 (F := Ideal) (val_main_v54 (F := Ideal) x0 x1 x2 x4 x5 x6 x7 x8 x9 x10 x17 x18) x0 x3 x4 x11 x12 x13 x14 x15 x16 x19 x20 := by
  -- operation by operation the second update is the first one's definition over the other buffers, so the two
  -- sides unfold to the same term
  rfl

end Cert.ReferenceIdeal.RefRow

end
-- ==== Proof.Bridge.lean ====
/-
  The two programs compute the same two arrays.

  Kernel side: each result is the node update of every row, of the arrays its region found (the launch
  arrays, the aggregation, the bias and scale rows recast from [256] to [1, 256]). Reference side: each
  result's stage, read at an entry, is the node update of that row (the bias and scale rows read as [256]).
  The aggregation (gather, edge term, rectifier, scatter-add) is the same composed function of its five
  operands in both programs and is never opened; a [256] row recast to [1, 256] reads at (0, j) what the row
  reads at j. So the first results agree, and then so do the second, whose aggregation gathers from the first.
-/
import proofs.«413193_j59365037965999_3_alg».proof.Proof.KernelWhole
import proofs.«413193_j59365037965999_3_alg».proof.Proof.RefRow

set_option maxRecDepth 16384

noncomputable section

namespace Cert.Bridge

open Idealize.ShloMosaic Idealize.ShloMosaic.TcCoe Idealize.ShloMosaic.ValueIdx Idealize.SL.Sem
open Cert.NodeUpdate Cert.KernelIdeal.Row

/-- The aggregation is one function in both programs. -/
theorem agg_same (x0 : (⟨Cert.ReferenceIdeal.S50000x256, .f32⟩ : BufTy).Contents (Elt Ideal)) (x2 : (⟨Cert.ReferenceIdeal.S2x300000, .i32⟩ : BufTy).Contents (Elt Ideal)) (x4 : (⟨Cert.ReferenceIdeal.S300000x1, .f32⟩ : BufTy).Contents (Elt Ideal))
    (x5 : (⟨Cert.ReferenceIdeal.S1x256, .f32⟩ : BufTy).Contents (Elt Ideal)) (x6 : (⟨Cert.ReferenceIdeal.S256, .f32⟩ : BufTy).Contents (Elt Ideal)) :
    Cert.KernelIdeal.Bounds.aggK (F := Ideal) x0 x2 x4 x5 x6 = Cert.ReferenceIdeal.Read.val_main_v19 (F := Ideal) x0 x2 x4 x5 x6 := rfl

/-- A [256] row recast to [1, 256], by its coordinate, is the row. -/
theorem cast_row (b : (⟨Cert.ReferenceIdeal.S256, .f32⟩ : BufTy).Contents (Elt Ideal)) :
    vecOf (shapeCast Cert.KernelIdeal.S1x256 b Cert.KernelIdeal.Facts₀.shapeCasts_S256_S1x256) = fun j => b (ix1 j) :=
  funext fun j => shapeCast_a_1a_apply b Cert.KernelIdeal.Facts₀.shapeCasts_S256_S1x256 (0 : Fin 1) j

/-- The reference's first stage is the update of every row. -/
theorem ref_update (x0 x1 : (⟨Cert.ReferenceIdeal.S50000x256, .f32⟩ : BufTy).Contents (Elt Ideal)) (x2 : (⟨Cert.ReferenceIdeal.S2x300000, .i32⟩ : BufTy).Contents (Elt Ideal)) (x4 : (⟨Cert.ReferenceIdeal.S300000x1, .f32⟩ : BufTy).Contents (Elt Ideal))
    (x5 : (⟨Cert.ReferenceIdeal.S1x256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal))
    (x9 : (⟨Cert.ReferenceIdeal.S256x256, .f32⟩ : BufTy).Contents (Elt Ideal)) (x10 x17 x18 : (⟨Cert.ReferenceIdeal.S256, .f32⟩ : BufTy).Contents (Elt Ideal)) :
    Cert.ReferenceIdeal.Read.val_main_v54 (F := Ideal) x0 x1 x2 x4 x5 x6 x7 x8 x9 x10 x17 x18
      = update x1 (Cert.ReferenceIdeal.Read.val_main_v19 (F := Ideal) x0 x2 x4 x5 x6) (matOf x7) (fun j => x8 (ix1 j)) (matOf x9) (fun j => x10 (ix1 j))
          (fun j => x17 (ix1 j)) (fun j => x18 (ix1 j)) := by
  funext i
  obtain ⟨r, q, rfl⟩ : ∃ (r : Fin 50000) (q : Fin 256), i = ix2 r q := ⟨i 0, i 1, eq_ix2 i⟩
  exact Cert.ReferenceIdeal.RefRow.v54_apply x0 x1 x2 x4 x5 x6 x7 x8 x9 x10 x17 x18 r q

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's first result is the kernel's, from memories that agree on the arguments. -/
theorem first_same (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))) :
    Cert.ReferenceIdeal.Value.res_main_v54 m' c = Cert.KernelIdeal.Whole.first m c := by
  rw [Cert.ReferenceIdeal.Read.val_main_v54_eq, h0, h1, h2, h4, h5, h6, h7, h8, h9, h10, h17, h18, ref_update]
  unfold Cert.KernelIdeal.Whole.first
  rw [agg_same, cast_row, cast_row, cast_row, cast_row]

/-- The reference's second result is the kernel's. -/
theorem second_same (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))) :
    Cert.ReferenceIdeal.Value.res_main_v109 m' c = Cert.KernelIdeal.Whole.second m c := by
  have hfirst := first_same m m' c h0 h1 h2 h3 h4 h5 h6 h7 h8 h9 h10 h11 h12 h13 h14 h15 h16 h17 h18 h19 h20
  rw [Cert.ReferenceIdeal.Read.val_main_v54_eq, h0, h1, h2, h4, h5, h6, h7, h8, h9, h10, h17, h18] at hfirst
  rw [Cert.ReferenceIdeal.Read.val_main_v109_eq, h0, h1, h2, h3, h4, h5, h6, h7, h8, h9, h10, h11, h12, h13, h14, h15, h16, h17, h18, h19, h20,
    Cert.ReferenceIdeal.RefRow.v109_eq, hfirst, ref_update]
  unfold Cert.KernelIdeal.Whole.second
  rw [agg_same, cast_row, cast_row, cast_row, cast_row]

end Cert.Bridge

end
-- ==== Proof.lean ====
/-
  The certificate of a bipartite message-passing layer: two rounds of "aggregate the neighbours' messages, pass
  the sum through a two-layer perceptron, add back, normalise".

  Both programs aggregate by the same host operations (gather the source rows, add the edge's linear term,
  rectify, scatter-add). The kernel program then runs the node update as a grid of 25 blocks of 2000 rows; the
  reference runs it over the whole 50000 × 256 array. Entry (r, q) of either result depends on row r only, and is
  the same function of that row on the extended reals: the matrix products are the same sums over the 256
  contracted coordinates, the row means the same sums divided by the same word, the changes of float format the
  identity. The second round repeats the first on the other node set, gathering from the first round's result,
  which the first step has shown equal. No law beyond reading each operation at an entry is needed, so the
  precondition is never opened.

  The frames of the two kernel programs are the generated ones; the reference's frame is its generated run with
  the results dropped; the idealization rewrote nothing, so `preserves` is trivial.
-/
import proofs.«413193_j59365037965999_3_alg».proof.Defs
import proofs.«413193_j59365037965999_3_alg».proof.Proof.Gen.Kernel
import proofs.«413193_j59365037965999_3_alg».proof.Proof.Gen.Kernel.Skeleton
import proofs.«413193_j59365037965999_3_alg».proof.Proof.Gen.Kernel.Launch
import proofs.«413193_j59365037965999_3_alg».proof.Proof.Gen.Kernel.Points
import proofs.«413193_j59365037965999_3_alg».proof.Proof.Gen.Kernel.Frame
import proofs.«413193_j59365037965999_3_alg».proof.Proof.Gen.KernelIdeal
import proofs.«413193_j59365037965999_3_alg».proof.Proof.Gen.KernelIdeal.Skeleton
import proofs.«413193_j59365037965999_3_alg».proof.Proof.Gen.KernelIdeal.Launch
import proofs.«413193_j59365037965999_3_alg».proof.Proof.Gen.KernelIdeal.Points
import proofs.«413193_j59365037965999_3_alg».proof.Proof.Gen.KernelIdeal.Frame
import proofs.«413193_j59365037965999_3_alg».proof.Proof.Gen.ReferenceIdeal
import proofs.«413193_j59365037965999_3_alg».proof.Proof.Gen.Pre_finite_inputs
import proofs.«413193_j59365037965999_3_alg».proof.Proof.Gen.ReferenceIdeal.Run
import proofs.«413193_j59365037965999_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the same two arrays: the kernel program's
    run read as the two node updates, the reference's generated run, and the two equalities of results. -/
theorem algebraic : Cert.algebraic_KernelIdeal_ReferenceIdeal := by
  intro m ρ m' ρ' _ hagree
  refine ⟨fun c => Cert.KernelIdeal.Whole.second m c, fun c => Cert.KernelIdeal.Whole.first m c,
    Cert.KernelIdeal.Whole.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20⟩ := hagree c
  exact ⟨(h c).1.trans (Cert.Bridge.second_same m m' c h0 h1 h2 h3 h4 h5 h6 h7 h8 h9 h10 h11 h12 h13 h14 h15 h16 h17 h18 h19 h20),
    (h c).2.1.trans (Cert.Bridge.first_same m m' c h0 h1 h2 h3 h4 h5 h6 h7 h8 h9 h10 h11 h12 h13 h14 h15 h16 h17 h18 h19 h20), (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
